-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S8192x128 .f32 .bf16
  ∧ IdealRules.truncf_extf.Statement Cert.KernelIdeal.S8192x128 .f32 .bf16
  ∧ IdealRules.truncf_extf.Statement Cert.KernelIdeal.S8192x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x128 : Shape := ⟨2, ![256, 128]⟩
abbrev S128 : Shape := ⟨1, ![128]⟩
abbrev S128x86 : Shape := ⟨2, ![128, 86]⟩
abbrev S86 : Shape := ⟨1, ![86]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x86 : S_.BroadcastsInDim S128x86 (![] : Fin 0 → Fin S128x86.rank)
  reducesTo_S128x86_S_d0_1 : S128x86.ReducesTo [0, 1] S_
  bcast_S_S86 : S_.BroadcastsInDim S86 (![] : Fin 0 → Fin S86.rank)
  reducesTo_S86_S_d0 : S86.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg6 : IVec S1000000 32) (main_v30 : IVec S_ 1) (main_v32 : IVec S1000000 1) (main_c_12 : IVec S_ 32) : IVec S_ 1 :=
  let main_v33 : IVec S1000000 32 := broadcastInDim S1000000 ![] bcast_S_S1000000 main_c_12
  let main_v34 : IVec S1000000 1 := cmpi .slt main_arg6 main_v33
  let main_v35 : IVec S1000000 1 := andi main_v32 main_v34
  let main_c_13 : IVec S_ 1 := constantI S_ 1 1#1
  let main_v36 : IVec S_ 1 := (fun x v => Host.reduce IntOp.andi x v reducesTo_S1000000_S_d0 h_S_) main_v35 main_c_13
  let main_v37 : IVec S_ 1 := andi main_v30 main_v36
  main_v37

def fn_part1 {F : FTy → Type} [FloatOps F] (main_arg4 : FVec F S86 .f32) (main_arg5 : IVec S1000000 32) (main_arg6 : IVec S1000000 32) (main_v13 : IVec S_ 1) (main_v16 : IVec S128x86 1) : IVec S_ 1 :=
  let main_c_5 : IVec S_ 1 := constantI S_ 1 1#1
  let main_v17 : IVec S_ 1 := (fun x v => Host.reduce IntOp.andi x v reducesTo_S128x86_S_d0_1 h_S_) main_v16 main_c_5
  let main_v18 : IVec S_ 1 := andi main_v13 main_v17
  let main_v19 : FVec F S86 .f32 := Host.absf main_arg4
  let main_cst_6 : FVec F S_ .f32 := constant S_ .f32 0x7F800000#32
  let main_v20 : FVec F S86 .f32 := broadcastInDim S86 ![] bcast_S_S86 main_cst_6
  let main_v21 : IVec S86 1 := cmpf .olt main_v19 main_v20
  let main_c_7 : IVec S_ 1 := constantI S_ 1 1#1
  let main_v22 : IVec S_ 1 := (fun x v => Host.reduce IntOp.andi x v reducesTo_S86_S_d0 h_S_) main_v21 main_c_7
  let main_v23 : IVec S_ 1 := andi main_v18 main_v22
  let main_c_8 : IVec S_ 32 := constantI S_ 32 0#32
  let main_v24 : IVec S1000000 32 := broadcastInDim S1000000 ![] bcast_S_S1000000 main_c_8
  let main_v25 : IVec S1000000 1 := cmpi .sge main_arg5 main_v24
  let main_c_9 : IVec S_ 32 := constantI S_ 32 100000#32
  let main_v26 : IVec S1000000 32 := broadcastInDim S1000000 ![] bcast_S_S1000000 main_c_9
  let main_v27 : IVec S1000000 1 := cmpi .slt main_arg5 main_v26
  let main_v28 : IVec S1000000 1 := andi main_v25 main_v27
  let main_c_10 : IVec S_ 1 := constantI S_ 1 1#1
  let main_v29 : IVec S_ 1 := (fun x v => Host.reduce IntOp.andi x v reducesTo_S1000000_S_d0 h_S_) main_v28 main_c_10
  let main_v30 : IVec S_ 1 := andi main_v23 main_v29
  let main_c_11 : IVec S_ 32 := constantI S_ 32 0#32
  let main_v31 : IVec S1000000 32 := broadcastInDim S1000000 ![] bcast_S_S1000000 main_c_11
  let main_v32 : IVec S1000000 1 := cmpi .sge main_arg6 main_v31
  let main_c_12 : IVec S_ 32 := constantI S_ 32 100000#32
  fn_part2 (F := F) main_arg6 main_v30 main_v32 main_c_12

def fn {F : FTy → Type} [FloatOps F] (main_arg0 : FVec F S100000x128 .f32) (main_arg1 : FVec F S256x128 .f32) (main_arg2 : FVec F S128 .f32) (main_arg3 : FVec F S128x86 .f32) (main_arg4 : FVec F S86 .f32) (main_arg5 : IVec S1000000 32) (main_arg6 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x86 .f32 := Host.absf main_arg3
  let main_cst_4 : FVec F S_ .f32 := constant S_ .f32 0x7F800000#32
  let main_v15 : FVec F S128x86 .f32 := broadcastInDim S128x86 ![] bcast_S_S128x86 main_cst_4
  let main_v16 : IVec S128x86 1 := cmpf .olt main_v14 main_v15
  fn_part1 (F := F) main_arg4 main_arg5 main_arg6 main_v13 main_v16
-- ==== Kernel.lean ====
abbrev S100000x128 : Shape := ⟨2, ![100000, 128]⟩
abbrev S256x128 : Shape := ⟨2, ![256, 128]⟩
abbrev S128 : Shape := ⟨1, ![128]⟩
abbrev S128x86 : Shape := ⟨2, ![128, 86]⟩
abbrev S86 : Shape := ⟨1, ![86]⟩
abbrev S1000000 : Shape := ⟨1, ![1000000]⟩
abbrev S128x128 : Shape := ⟨2, ![128, 128]⟩
abbrev S1x128 : Shape := ⟨2, ![1, 128]⟩
abbrev S1x86 : Shape := ⟨2, ![1, 86]⟩
abbrev S_ : Shape := ⟨0, ![]⟩
abbrev S1007616 : Shape := ⟨1, ![1007616]⟩
abbrev S1007616x1 : Shape := ⟨2, ![1007616, 1]⟩
abbrev S1 : Shape := ⟨1, ![1]⟩
abbrev S1x1 : Shape := ⟨2, ![1, 1]⟩
abbrev S1007616x128 : Shape := ⟨2, ![1007616, 128]⟩
abbrev S1007616x86 : Shape := ⟨2, ![1007616, 86]⟩
abbrev S8192x128 : Shape := ⟨2, ![8192, 128]⟩
abbrev S8192x86 : Shape := ⟨2, ![8192, 86]⟩
abbrev S1000000x86 : Shape := ⟨2, ![1000000, 86]⟩

abbrev nBuf : Space → Nat
  | .hbm => 77
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S128, .f32⟩
  | .hbm, ⟨3, _⟩ => ⟨S128x86, .f32⟩
  | .hbm, ⟨4, _⟩ => ⟨S86, .f32⟩
  | .hbm, ⟨5, _⟩ => ⟨S1000000, .i32⟩
  | .hbm, ⟨6, _⟩ => ⟨S1000000, .i32⟩
  | .hbm, ⟨7, _⟩ => ⟨S128x128, .f32⟩
  | .hbm, ⟨8, _⟩ => ⟨S128x128, .f32⟩
  | .hbm, ⟨9, _⟩ => ⟨S128x128, .bf16⟩
  | .hbm, ⟨10, _⟩ => ⟨S128x128, .f32⟩
  | .hbm, ⟨11, _⟩ => ⟨S128x128, .f32⟩
  | .hbm, ⟨12, _⟩ => ⟨S128x128, .bf16⟩
  | .hbm, ⟨13, _⟩ => ⟨S128x128, .bf16⟩
  | .hbm, ⟨14, _⟩ => ⟨S128x128, .f32⟩
  | .hbm, ⟨15, _⟩ => ⟨S128x128, .f32⟩
  | .hbm, ⟨16, _⟩ => ⟨S128x128, .bf16⟩
  | .hbm, ⟨17, _⟩ => ⟨S128x86, .bf16⟩
  | .hbm, ⟨18, _⟩ => ⟨S128x86, .f32⟩
  | .hbm, ⟨19, _⟩ => ⟨S128x86, .f32⟩
  | .hbm, ⟨20, _⟩ => ⟨S128x86, .bf16⟩
  | .hbm, ⟨21, _⟩ => ⟨S1x128, .f32⟩
  | .hbm, ⟨22, _⟩ => ⟨S1x86, .f32⟩
  | .hbm, ⟨23, _⟩ => ⟨S_, .i32⟩
  | .hbm, ⟨24, _⟩ => ⟨S_, .i32⟩
  | .hbm, ⟨25, _⟩ => ⟨S1007616, .i32⟩
  | .hbm, ⟨26, _⟩ => ⟨S_, .i32⟩
  | .hbm, ⟨27, _⟩ => ⟨S_, .i32⟩
  | .hbm, ⟨28, _⟩ => ⟨S1007616, .i32⟩
  | .hbm, ⟨29, _⟩ => ⟨S_, .i32⟩
  | .hbm, ⟨30, _⟩ => ⟨S1007616, .i32⟩
  | .hbm, ⟨31, _⟩ => ⟨S1007616, .i1⟩
  | .hbm, ⟨32, _⟩ => ⟨S_, .i32⟩
  | .hbm, ⟨33, _⟩ => ⟨S1007616, .i32⟩
  | .hbm, ⟨34, _⟩ => ⟨S1007616, .i32⟩
  | .hbm, ⟨35, _⟩ => ⟨S1007616, .i32⟩
  | .hbm, ⟨36, _⟩ => ⟨S1007616x1, .i32⟩
  | .hbm, ⟨37, _⟩ => ⟨S1, .i32⟩
  | .hbm, ⟨38, _⟩ => ⟨S_, .i32⟩
  | .hbm, ⟨39, _⟩ => ⟨S1007616x1, .i32⟩
  | .hbm, ⟨40, _⟩ => ⟨S1007616x1, .i1⟩
  | .hbm, ⟨41, _⟩ => ⟨S1x1, .i32⟩
  | .hbm, ⟨42, _⟩ => ⟨S1007616x1, .i32⟩
  | .hbm, ⟨43, _⟩ => ⟨S1007616x1, .i1⟩
  | .hbm, ⟨44, _⟩ => ⟨S1007616x1, .i1⟩
  | .hbm, ⟨45, _⟩ => ⟨S_, .i1⟩
  | .hbm, ⟨46, _⟩ => ⟨S1007616, .i1⟩
  | .hbm, ⟨47, _⟩ => ⟨S1007616x128, .f32⟩
  | .hbm, ⟨48, _⟩ => ⟨S1007616x128, .i1⟩
  | .hbm, ⟨49, _⟩ => ⟨S_, .f32⟩
  | .hbm, ⟨50, _⟩ => ⟨S1007616x128, .f32⟩
  | .hbm, ⟨51, _⟩ => ⟨S1007616x128, .f32⟩
  | .hbm, ⟨52, _⟩ => ⟨S_, .i32⟩
  | .hbm, ⟨53, _⟩ => ⟨S1007616, .i32⟩
  | .hbm, ⟨54, _⟩ => ⟨S1007616, .i1⟩
  | .hbm, ⟨55, _⟩ => ⟨S_, .i32⟩
  | .hbm, ⟨56, _⟩ => ⟨S1007616, .i32⟩
  | .hbm, ⟨57, _⟩ => ⟨S1007616, .i32⟩
  | .hbm, ⟨58, _⟩ => ⟨S1007616, .i32⟩
  | .hbm, ⟨59, _⟩ => ⟨S1007616x1, .i32⟩
  | .hbm, ⟨60, _⟩ => ⟨S1, .i32⟩
  | .hbm, ⟨61, _⟩ => ⟨S_, .i32⟩
  | .hbm, ⟨62, _⟩ => ⟨S1007616x1, .i32⟩
  | .hbm, ⟨63, _⟩ => ⟨S1007616x1, .i1⟩
  | .hbm, ⟨64, _⟩ => ⟨S1x1, .i32⟩
  | .hbm, ⟨65, _⟩ => ⟨S1007616x1, .i32⟩
  | .hbm, ⟨66, _⟩ => ⟨S1007616x1, .i1⟩
  | .hbm, ⟨67, _⟩ => ⟨S1007616x1, .i1⟩
  | .hbm, ⟨68, _⟩ => ⟨S_, .i1⟩
  | .hbm, ⟨69, _⟩ => ⟨S1007616, .i1⟩
  | .hbm, ⟨70, _⟩ => ⟨S1007616x128, .f32⟩
  | .hbm, ⟨71, _⟩ => ⟨S1007616x128, .i1⟩
  | .hbm, ⟨72, _⟩ => ⟨S_, .f32⟩
  | .hbm, ⟨73, _⟩ => ⟨S1007616x128, .f32⟩
  | .hbm, ⟨74, _⟩ => ⟨S1007616x128, .f32⟩
  | .hbm, ⟨75, _⟩ => ⟨S1007616x86, .f32⟩
  | .hbm, ⟨76, _⟩ => ⟨S1000000x86, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128x86, .bf16⟩
  | .local _ .vmem, ⟨10, _⟩ => ⟨S128x86, .bf16⟩
  | .local _ .vmem, ⟨11, _⟩ => ⟨S1x86, .f32⟩
  | .local _ .vmem, ⟨12, _⟩ => ⟨S8192x86, .f32⟩
  | .local _ .vmem, ⟨13, _⟩ => ⟨S8192x86, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_c_0 : Ref sig .tc := ⟨.hbm, 26, rfl⟩
abbrev main_call1_v0 : Ref sig .tc := ⟨.hbm, 27, rfl⟩
abbrev main_v17 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_call2_cst : Ref sig .tc := ⟨.hbm, 49, rfl⟩
abbrev main_call2_v15 : Ref sig .tc := ⟨.hbm, 50, rfl⟩
abbrev main_v18 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_call3_cst : Ref sig .tc := ⟨.hbm, 72, rfl⟩
abbrev main_call3_v15 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x86 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x86 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x86 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8192x86 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S256x128_S128x128_0_0 : S256x128.Slices ![0, 0] S128x128
  slices_S256x128_S128x128_128_0 : S256x128.Slices ![128, 0] S128x128
  bitsLt_bf16_f32 : FTy.bits .bf16 < FTy.bits .f32
  shapeCasts_S128_S1x128 : S128.ShapeCasts S1x128
  shapeCasts_S86_S1x86 : S86.ShapeCasts S1x86
  pads_S1000000_S1007616_076160 : S1000000.Pads (![0] : Fin 1 → Nat) ![7616] ![0] S1007616
  h_S_ : 0 < S_.numel
  bcast_S_S1007616 : S_.BroadcastsInDim S1007616 (![] : Fin 0 → Fin S1007616.rank)
  bcast_S1007616_S1007616x1_0 : S1007616.BroadcastsInDim S1007616x1 (![0] : Fin 1 → Fin S1007616x1.rank)
  bcast_S_S1007616x1 : S_.BroadcastsInDim S1007616x1 (![] : Fin 0 → Fin S1007616x1.rank)
  bcast_S1_S1x1_1 : S1.BroadcastsInDim S1x1 (![1] : Fin 1 → Fin S1x1.rank)
  bcast_S1x1_S1007616x1_0_1 : S1x1.BroadcastsInDim S1007616x1 (![0, 1] : Fin 2 → Fin S1007616x1.rank)
  reducesTo_S1007616x1_S1007616_d1 : S1007616x1.ReducesTo [1] S1007616
  bcast_S1007616_S1007616x128_0 : S1007616.BroadcastsInDim S1007616x128 (![0] : Fin 1 → Fin S1007616x128.rank)
  bcast_S_S1007616x128 : S_.BroadcastsInDim S1007616x128 (![] : Fin 0 → Fin S1007616x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x86_S128x86_0_0 : ∀ a, (![0, 0] : Fin 2 → Nat) a + S128x86.size a ≤ S128x86.size a
  h_S128x86 : 0 < S128x86.numel
  shapeCasts_S128x86_S128x86 : S128x86.ShapeCasts S128x86
  inb_S1x86_S1x86_0_0 : ∀ a, (![0, 0] : Fin 2 → Nat) a + S1x86.size a ≤ S1x86.size a
  h_S1x86 : 0 < S1x86.numel
  shapeCasts_S1x86_S1x86 : S1x86.ShapeCasts S1x86
  broadcasts_S1x86_S8192x86 : S1x86.Broadcasts S8192x86
  inb_S8192x86_S8192x86_0_0 : ∀ a, (![0, 0] : Fin 2 → Nat) a + S8192x86.size a ≤ S8192x86.size a
  h_S8192x86 : 0 < S8192x86.numel
  slices_S1007616x86_S1000000x86_0_0 : S1007616x86.Slices ![0, 0] S1000000x86
  gather_S100000x128_S1007616x1_S1007616x128_1_0_n_n_0_1_1128_wf : GatherDims.WF S100000x128 S1007616x1 S1007616x128 [1] [0] [] [0] [] 1 ![1, 128]
  dot_S8192x128_S128x128_S8192x128_1_0_0_1_n_n_wf : DotDims.WF S8192x128 S128x128 S8192x128 [1] [0] [0] [1] [] []
  dot_S8192x128_S128x86_S8192x86_1_0_0_1_n_n_wf : DotDims.WF S8192x128 S128x86 S8192x86 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .f32 = 32 ∨ (Rect.block (s := S1007616x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1007616x128.size a
  hwx0_1 : ∀ i : grid0.Coords, EltTy.bits .f32 = 32 ∨ (Rect.block (s := S1007616x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x86.size a ≤ S128x86.size a
  hwx0_7 : ∀ i : grid0.Coords, EltTy.bits .bf16 = 32 ∨ (Rect.block (s := S128x86) S128x86.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x86.size a ≤ S128x86.size a
  hwx0_8 : ∀ i : grid0.Coords, EltTy.bits .bf16 = 32 ∨ (Rect.block (s := S128x86) S128x86.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x86.size a ≤ S1x86.size a
  hwx0_9 : ∀ i : grid0.Coords, EltTy.bits .f32 = 32 ∨ (Rect.block (s := S1x86) S1x86.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x86.size a ≤ S1007616x86.size a
  hwx0_10 : ∀ i : grid0.Coords, EltTy.bits .f32 = 32 ∨ (Rect.block (s := S1007616x86) S8192x86.size (cc0_transform_10 i) (hinb0_10 i)).WholeWords (EltTy.packing .f32)

variable [Facts₀]

def gather_S100000x128_S1007616x1_S1007616x128_1_0_n_n_0_1_1128 : GatherDims S100000x128 S1007616x1 S1007616x128 where
  offsetDims := [1]
  collapsedSliceDims := [0]
  operandBatchingDims := []
  startIndicesBatchingDims := []
  startIndexMap := [0]
  indexVectorDim := 1
  sliceSizes := ![1, 128]
  wf := gather_S100000x128_S1007616x1_S1007616x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x86_S8192x86_1_0_0_1_n_n : DotDims S8192x128 S128x86 S8192x86 where
  lhsContracting := [1]
  rhsContracting := [0]
  lhsNonContracting := [0]
  rhsNonContracting := [1]
  lhsBatch := []
  rhsBatch := []
  wf := dot_S8192x128_S128x86_S8192x86_1_0_0_1_n_n_wf

abbrev win0_0 : Pipeline.Window sig grid0 :=
  Pipeline.Window.ofSpec (Memref.whole main_v18) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x86.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S128x86.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x86.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S8192x86.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S256x128 : Shape := ⟨2, ![256, 128]⟩
abbrev S128 : Shape := ⟨1, ![128]⟩
abbrev S128x86 : Shape := ⟨2, ![128, 86]⟩
abbrev S86 : Shape := ⟨1, ![86]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S128x128 : Shape := ⟨2, ![128, 128]⟩
abbrev S1x128 : Shape := ⟨2, ![1, 128]⟩
abbrev S1000000x86 : Shape := ⟨2, ![1000000, 86]⟩
abbrev S1x86 : Shape := ⟨2, ![1, 86]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S128, .f32⟩
  | .hbm, ⟨3, _⟩ => ⟨S128x86, .f32⟩
  | .hbm, ⟨4, _⟩ => ⟨S86, .f32⟩
  | .hbm, ⟨5, _⟩ => ⟨S1000000, .i32⟩
  | .hbm, ⟨6, _⟩ => ⟨S1000000, .i32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x128, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S128x128, .f32⟩
  | .hbm, ⟨26, _⟩ => ⟨S128x128, .f32⟩
  | .hbm, ⟨27, _⟩ => ⟨S1000000x128, .f32⟩
  | .hbm, ⟨28, _⟩ => ⟨S1000000x128, .f32⟩
  | .hbm, ⟨29, _⟩ => ⟨S1000000x128, .f32⟩
  | .hbm, ⟨30, _⟩ => ⟨S1x128, .f32⟩
  | .hbm, ⟨31, _⟩ => ⟨S1000000x128, .f32⟩
  | .hbm, ⟨32, _⟩ => ⟨S1000000x128, .f32⟩
  | .hbm, ⟨33, _⟩ => ⟨S_, .f32⟩
  | .hbm, ⟨34, _⟩ => ⟨S1000000x128, .f32⟩
  | .hbm, ⟨35, _⟩ => ⟨S1000000x128, .f32⟩
  | .hbm, ⟨36, _⟩ => ⟨S1000000x86, .f32⟩
  | .hbm, ⟨37, _⟩ => ⟨S1x86, .f32⟩
  | .hbm, ⟨38, _⟩ => ⟨S1000000x86, .f32⟩
  | .hbm, ⟨39, _⟩ => ⟨S1000000x86, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S256x128_S128x128_0_0 : S256x128.Slices ![0, 0] S128x128
  slices_S256x128_S128x128_128_0 : S256x128.Slices ![128, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S86_S1x86_1 : S86.BroadcastsInDim S1x86 (![1] : Fin 1 → Fin S1x86.rank)
  bcast_S1x86_S1000000x86_0_1 : S1x86.BroadcastsInDim S1000000x86 (![0, 1] : Fin 2 → Fin S1000000x86.rank)
  gather_S100000x128_S1000000x1_S1000000x128_1_0_n_n_0_1_1128_wf : GatherDims.WF S100000x128 S1000000x1 S1000000x128 [1] [0] [] [0] [] 1 ![1, 128]
  dot_S1000000x128_S128x128_S1000000x128_1_0_0_1_n_n_wf : DotDims.WF S1000000x128 S128x128 S1000000x128 [1] [0] [0] [1] [] []
  dot_S1000000x128_S128x86_S1000000x86_1_0_0_1_n_n_wf : DotDims.WF S1000000x128 S128x86 S1000000x86 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x86_S1000000x86_1_0_0_1_n_n : DotDims S1000000x128 S128x86 S1000000x86 where
  lhsContracting := [1]
  rhsContracting := [0]
  lhsNonContracting := [0]
  rhsNonContracting := [1]
  lhsBatch := []
  rhsBatch := []
  wf := dot_S1000000x128_S128x86_S1000000x86_1_0_0_1_n_n_wf

class Facts : Prop extends Facts₀ where

variable [Facts]
-- ==== Proof.Algebra.lean ====
/-
  The arithmetic of the edge scorer, apart from any program.

  A row of the node table is a vector `x : Fin n → EReal`; a weight matrix is indexed by the library's rank-2 indices.
  `rowDot x A k = ∑ j, x j * A (j, k)` is one entry of the product `x · A`.

  The kernel does not multiply `x · A` once. It splits each operand into a "high" part (the operand itself, once a
  change of float format is the identity) and a "low" part `x - x`, and adds three products
  `x · A + x · (A - A) + (x - x) · A`. For REAL entries `x - x = 0` and `A - A = 0`, and a sum of products with a
  zero factor is `0` on the extended reals (`0 * ⊤ = 0` there), so the three products add up to `x · A`. That is
  false at an infinity (`⊤ - ⊤ = ⊥`), which is why every law below asks its operands to be real numbers.
-/
import Idealize.ShloMosaic.PureOps.Ideal
import Idealize.ShloMosaic.Lib.ValueIdx

noncomputable section

namespace Cert.EdgeMlp

open Idealize.ShloMosaic Idealize.ShloMosaic.ValueIdx

/-- A rank-2 array of extended reals. -/
abbrev Mat (a b : Nat) : Type := (⟨2, ![a, b]⟩ : Shape).Idx → EReal

/-- An extended real that is a real number. -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max_zero {x : EReal} (hx : IsReal x) : IsReal (max x 0) := by
  obtain ⟨r, rfl⟩ := hx
  rcases le_total r 0 with h | h
  · exact ⟨0, by rw [max_eq_right (by exact_mod_cast h), EReal.coe_zero]⟩
  · exact ⟨r, max_eq_left (by exact_mod_cast h)⟩

/-- A real number minus itself is zero; an infinity minus itself is not. -/
theorem IsReal.sub_self {x : EReal} (hx : IsReal x) : x - x = 0 := by
  obtain ⟨r, rfl⟩ := hx
  rw [← EReal.coe_sub, _root_.sub_self, EReal.coe_zero]

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- Entry `k` of the product of the row `x` with the matrix `A`. -/
def rowDot {n p : Nat} (x : Fin n → EReal) (A : Mat n p) (k : Fin p) : EReal := ∑ j : Fin n, x j * A (ix2 j k)

theorem rowDot_isReal {n p : Nat} (x : Fin n → EReal) (A : Mat n p) (k : Fin p) (hx : ∀ j, IsReal (x j)) (hA : ∀ i, IsReal (A i)) :
    IsReal (rowDot x A k) :=
  IsReal.sum _ _ fun j _ => (hx j).mul (hA _)

/-- A row times the "low" part `A - A` of a real matrix is zero. -/
theorem rowDot_low_right {n p : Nat} (x : Fin n → EReal) (A : Mat n p) (k : Fin p) (hA : ∀ i, IsReal (A i)) :
    rowDot x (fun i => A i - A i) k = 0 := by
  unfold rowDot
  refine Finset.sum_eq_zero fun j _ => ?_
  show x j * (A (ix2 j k) - A (ix2 j k)) = 0
  rw [(hA _).sub_self, mul_zero]

/-- The "low" part `x - x` of a real row times any matrix is zero. -/
theorem rowDot_low_left {n p : Nat} (x : Fin n → EReal) (A : Mat n p) (k : Fin p) (hx : ∀ j, IsReal (x j)) :
    rowDot (fun j => x j - x j) A k = 0 := by
  unfold rowDot
  refine Finset.sum_eq_zero fun j _ => ?_
  show (x j - x j) * A (ix2 j k) = 0
  rw [(hx j).sub_self, zero_mul]

/-- The hidden row as the reference computes it: `max (xu · A + xv · B + b) 0`. -/
def hid (xu xv : Fin 128 → EReal) (A B : Mat 128 128) (b : Fin 128 → EReal) (k : Fin 128) : EReal :=
  max (rowDot xu A k + rowDot xv B k + b k) 0

/-- A score as the reference computes it: `hd · C + b`. -/
def out (hd : Fin 128 → EReal) (C : Mat 128 86) (b : Fin 86 → EReal) (c : Fin 86) : EReal :=
  rowDot hd C c + b c

/-- The hidden row as the kernel computes it, from operands split in a high and a low part: six products, then the
    bias row, then the maximum with zero. -/
def hidSplit (xu xv : Fin 128 → EReal) (Ah Al Bh Bl : Mat 128 128) (b : Mat 1 128) (k : Fin 128) : EReal :=
  max (rowDot xu Ah k + rowDot xu Al k + rowDot (fun j => xu j - xu j) Ah k
      + rowDot xv Bh k + rowDot xv Bl k + rowDot (fun j => xv j - xv j) Bh k + b (ix2 0 k)) 0

/-- A score as the kernel computes it: three products, then the bias row. -/
def outSplit (hd : Fin 128 → EReal) (Ch Cl : Mat 128 86) (b : Mat 1 86) (c : Fin 86) : EReal :=
  rowDot hd Ch c + rowDot hd Cl c + rowDot (fun k => hd k - hd k) Ch c + b (ix2 0 c)

theorem hid_isReal (xu xv : Fin 128 → EReal) (A B : Mat 128 128) (b : Fin 128 → EReal) (k : Fin 128)
    (hxu : ∀ j, IsReal (xu j)) (hxv : ∀ j, IsReal (xv j)) (hA : ∀ i, IsReal (A i)) (hB : ∀ i, IsReal (B i))
    (hb : ∀ k, IsReal (b k)) : IsReal (hid xu xv A B b k) :=
  (((rowDot_isReal xu A k hxu hA).add (rowDot_isReal xv B k hxv hB)).add (hb k)).max_zero

/-- With real operands whose low parts are `A - A` and `B - B`, the six products are the reference's two. -/
theorem hidSplit_eq (xu xv : Fin 128 → EReal) (A B : Mat 128 128) (b : Mat 1 128) (k : Fin 128)
    (hxu : ∀ j, IsReal (xu j)) (hxv : ∀ j, IsReal (xv j)) (hA : ∀ i, IsReal (A i)) (hB : ∀ i, IsReal (B i)) :
    hidSplit xu xv A (fun i => A i - A i) B (fun i => B i - B i) b k = hid xu xv A B (fun k => b (ix2 0 k)) k := by
  unfold hidSplit hid
  rw [rowDot_low_right xu A k hA, rowDot_low_left xu A k hxu, rowDot_low_right xv B k hB, rowDot_low_left xv B k hxv]
  simp only [add_zero]

/-- With a real hidden row and a real matrix whose low part is `C - C`, the three products are the reference's one. -/
theorem outSplit_eq (hd : Fin 128 → EReal) (C : Mat 128 86) (b : Mat 1 86) (c : Fin 86)
    (hhd : ∀ k, IsReal (hd k)) (hC : ∀ i, IsReal (C i)) :
    outSplit hd C (fun i => C i - C i) b c = out hd C (fun c => b (ix2 0 c)) c := by
  unfold outSplit out
  rw [rowDot_low_right hd C c hC, rowDot_low_left hd C c hhd]
  simp only [add_zero]

/-- THE LAW THAT JOINS THE TWO SIDES: the kernel's split computation of a score is the reference's, for real operands. -/
theorem outSplit_hidSplit_eq (xu xv : Fin 128 → EReal) (A B : Mat 128 128) (b1 : Mat 1 128) (C : Mat 128 86) (b2 : Mat 1 86)
    (c : Fin 86) (hxu : ∀ j, IsReal (xu j)) (hxv : ∀ j, IsReal (xv j)) (hA : ∀ i, IsReal (A i)) (hB : ∀ i, IsReal (B i))
    (hb1 : ∀ i, IsReal (b1 i)) (hC : ∀ i, IsReal (C i)) :
    outSplit (fun k => hidSplit xu xv A (fun i => A i - A i) B (fun i => B i - B i) b1 k) C (fun i => C i - C i) b2 c
      = out (fun k => hid xu xv A B (fun k => b1 (ix2 0 k)) k) C (fun c => b2 (ix2 0 c)) c := by
  have e : (fun k => hidSplit xu xv A (fun i => A i - A i) B (fun i => B i - B i) b1 k)
      = fun k => hid xu xv A B (fun k => b1 (ix2 0 k)) k := funext fun k => hidSplit_eq xu xv A B b1 k hxu hxv hA hB
  rw [e]
  exact outSplit_eq _ C b2 c (fun k => hid_isReal xu xv A B _ k hxu hxv hA hB fun k => hb1 _) hC

/-! ## The specification: one score, from the argument arrays -/

/-- The table row an index word names: the word read as a signed integer and clamped into the table's 100000 rows (a
    word below 100000 names its own value). -/
def rowOf (w : BitVec 32) : Fin 100000 := ⟨min w.toInt.toNat 99999, by omega⟩

theorem rowOf_val_of_lt {w : BitVec 32} (h : w.toNat < 100000) : (rowOf w).val = w.toNat := by
  have h1 : w.toInt = (w.toNat : Int) := by
    rw [BitVec.toInt_eq_toNat_cond, if_pos (by omega)]
  show min w.toInt.toNat 99999 = w.toNat
  rw [h1, Int.toNat_natCast]; omega

/-- The first 128 rows of the first layer's weights: what multiplies the source node's features. -/
def top (W : Mat 256 128) : Mat 128 128 :=
  fun i => W (ix2 (⟨(i 0).val, by have := idx2_lt0 i; omega⟩ : Fin 256) (⟨(i 1).val, idx2_lt1 i⟩ : Fin 128))

/-- The last 128 rows: what multiplies the destination node's features. -/
def bot (W : Mat 256 128) : Mat 128 128 :=
  fun i => W (ix2 (⟨128 + (i 0).val, by have := idx2_lt0 i; omega⟩ : Fin 256) (⟨(i 1).val, idx2_lt1 i⟩ : Fin 128))

/-- THE SCORE of edge `e` for class `c`: the two-layer perceptron on the features of the edge's two end nodes,
    `relu (h[src e] · W1[:128] + h[dst e] · W1[128:] + b1) · W2 + b2`. -/
def scoreAt (h : Mat 100000 128) (W1 : Mat 256 128) (b1 : (⟨1, ![128]⟩ : Shape).Idx → EReal) (W2 : Mat 128 86)
    (b2 : (⟨1, ![86]⟩ : Shape).Idx → EReal) (src dst : (⟨1, ![1000000]⟩ : Shape).Idx → BitVec 32)
    (e : Fin 1000000) (c : Fin 86) : EReal :=
  out (fun k => hid (fun j => h (ix2 (rowOf (src (ix1 e))) j)) (fun j => h (ix2 (rowOf (dst (ix1 e))) j))
      (top W1) (bot W1) (fun k => b1 (ix1 k)) k) W2 (fun c => b2 (ix1 c)) c

end Cert.EdgeMlp

end
-- ==== Proof.Arrays.lean ====
/-
  Names, at their literal array types, for the ten operand arrays of the pallas_call as the region finds them and for the
  seven argument arrays as launched.
-/
import proofs.«410828_j88201448391221_3_alg».proof.Proof.Gen.KernelIdeal.Frame
import proofs.«410828_j88201448391221_3_alg».proof.Proof.Algebra
import Idealize.ShloMosaic.PureOps.Ideal

noncomputable section

namespace Cert.EdgeMlp.Arr

open Idealize.ShloMosaic Idealize.ShloMosaic.TcCoe Idealize.SL.Sem
open Cert.KernelIdeal Cert.KernelIdeal.Gen Cert.EdgeMlp

variable (m : (ℓ : Loc nD τ sig) → Buf (Elt Ideal) ℓ)

/-- The gathered features of each edge's source node, one row an edge (padded to 1007616 rows). -/
abbrev HU (c : Dev nD) : Mat 1007616 128 := V m c main_v18
/-- The gathered features of each edge's destination node. -/
abbrev HV (c : Dev nD) : Mat 1007616 128 := V m c main_v19
/-- The high and low parts of the first layer's weights for the source node, -/
abbrev Ah (c : Dev nD) : Mat 128 128 := V m c main_v2
abbrev Al (c : Dev nD) : Mat 128 128 := V m c main_v5
/-- for the destination node, -/
abbrev Bh (c : Dev nD) : Mat 128 128 := V m c main_v6
abbrev Bl (c : Dev nD) : Mat 128 128 := V m c main_v9
/-- the first bias as a one-row matrix, -/
abbrev B1 (c : Dev nD) : Mat 1 128 := V m c main_v14
/-- the high and low parts of the second layer's weights, -/
abbrev Ch (c : Dev nD) : Mat 128 86 := V m c main_v10
abbrev Cl (c : Dev nD) : Mat 128 86 := V m c main_v13
/-- and the second bias as a one-row matrix. -/
abbrev B2 (c : Dev nD) : Mat 1 86 := V m c main_v15

/-- The argument arrays as launched. -/
abbrev h (c : Dev nD) : Mat 100000 128 := m ((c : Thread nD τ).loc main_arg0)
abbrev W1 (c : Dev nD) : Mat 256 128 := m ((c : Thread nD τ).loc main_arg1)
abbrev b1 (c : Dev nD) : (⟨1, ![128]⟩ : Shape).Idx → EReal := m ((c : Thread nD τ).loc main_arg2)
abbrev W2 (c : Dev nD) : Mat 128 86 := m ((c : Thread nD τ).loc main_arg3)
abbrev b2 (c : Dev nD) : (⟨1, ![86]⟩ : Shape).Idx → EReal := m ((c : Thread nD τ).loc main_arg4)
abbrev src (c : Dev nD) : (⟨1, ![1000000]⟩ : Shape).Idx → BitVec 32 := m ((c : Thread nD τ).loc main_arg5)
abbrev dst (c : Dev nD) : (⟨1, ![1000000]⟩ : Shape).Idx → BitVec 32 := m ((c : Thread nD τ).loc main_arg6)

end Cert.EdgeMlp.Arr

end
-- ==== Proof.PreDecode.lean ====
/-
  What the precondition says, entry by entry: every float input holds real numbers (`|x| < +∞` on the extended reals
  leaves out exactly the two infinities), and every index word is a row of the node table (`0 ≤ w` and `w < 100000` as
  signed words).
-/
import proofs.«410828_j88201448391221_3_alg».proof.Pre_finite_inputs
import proofs.«410828_j88201448391221_3_alg».proof.Proof.Algebra
import Idealize.ShloMosaic.PureOps.Ideal.Laws
import Idealize.ShloMosaic.Lib.ValueIdx
import Idealize.ShloMosaic.Lib.ReduceAll
import Idealize.ShloMosaic.Lib.StableHlo.Predicate

noncomputable section

namespace Cert.EdgeMlp.Pre

open Idealize.ShloMosaic Idealize.ShloMosaic.ValueIdx Cert.Pre_finite_inputs Cert.EdgeMlp

/-! ## The scalar facts -/

/-- The word `0x7F800000` (exponent all ones, fraction zero, sign clear) denotes `+∞`. -/
theorem ofBits_inf : Ideal.ofBits .f32 0x7F800000#32 = (⊤ : EReal) := by
  simp [Ideal.ofBits, Ideal.ieee]

/-- An extended real whose absolute value `max x (-x)` is below `+∞` is a real number: at `⊥` and at `⊤` the
    maximum is `⊤`, which is not below itself. -/
theorem isReal_of_abs_lt_top (x : EReal) (h : max x (-x) < ⊤) : IsReal x := by
  induction x using EReal.rec with
  | bot => simp at h
  | top => simp at h
  | coe r => exact ⟨r, rfl⟩

/-- A 32-bit word that is `≥ 0` and `< 100000` as a SIGNED number has its unsigned value below 100000: the first
    comparison rules out the upper half of the unsigned range (where the signed reading is `toNat - 2 ^ 32 < 0`), and on
    the lower half the two readings agree. -/
theorem toNat_lt_of_cmps (w : BitVec 32) (h1 : IntOp.cmpi .sge w 0#32 = 1#1) (h2 : IntOp.cmpi .slt w 100000#32 = 1#1) :
    w.toNat < 100000 := by
  have a := IntOp.cmpi_sge.1 h1
  have b := IntOp.cmpi_slt.1 h2
  have z : (0#32 : BitVec 32).toInt = 0 := by decide
  have c : (100000#32 : BitVec 32).toInt = 100000 := by decide
  rw [z] at a
  rw [c] at b
  rw [BitVec.toInt_eq_toNat_cond] at a b
  have := w.isLt
  split at a <;> omega

/-! ## The element facts: one entry of each compared array -/

/-- The scalar shape has one index, so a reduction over all axes collects every entry into it. -/
theorem subsingleton_scalar : Subsingleton S_.Idx := ⟨fun a b => funext fun d => d.elim0⟩

/-- An `and` of two bit arrays that is 1 at an index has both bits 1 there. -/
theorem andi_one {s : Shape} (x y : IVec s 1) (i : s.Idx) (h : andi x y i = 1#1) : x i = 1#1 ∧ y i = 1#1 :=
  IntOp.andi_eq_one.1 h

/-- The element fact of a float input: `|x i| < +∞`, the bound a scalar read at every index, says `x i` is real. -/
theorem real_of_cmp [Facts] {s : Shape} (hb : S_.BroadcastsInDim s ![]) (x : FVec Ideal s .f32) (i : s.Idx)
    (h : cmpf .olt (Host.absf x) (broadcastInDim s ![] hb (constant S_ .f32 0x7F800000#32)) i = 1#1) : IsReal (x i) := by
  rw [cmpf_apply, StableHlo.Predicate.bcast_scalar hb Facts.h_S_, constant_apply, ofBits_inf, Ideal.cmpf_def] at h
  refine isReal_of_abs_lt_top _ ?_
  have h' : decide (FloatOps.hostAbsf (x i) < (⊤ : EReal)) = true := (StableHlo.Predicate.ofBool_eq_one_iff _).1 h
  exact of_decide_eq_true h'

/-- The element fact of an index input: `0 ≤ w` and `w < 100000` as signed words, each bound a scalar read at every
    index, bound the word's unsigned value. -/
theorem row_of_cmps [Facts] (hb : S_.BroadcastsInDim S1000000 ![]) (a : IVec S1000000 32) (i : S1000000.Idx)
    (h : andi (cmpi .sge a (broadcastInDim S1000000 ![] hb (constantI S_ 32 0#32)))
      (cmpi .slt a (broadcastInDim S1000000 ![] hb (constantI S_ 32 100000#32))) i = 1#1) : (a i).toNat < 100000 := by
  obtain ⟨e1, e2⟩ := andi_one _ _ _ h
  have b0 : broadcastInDim S1000000 ![] hb (constantI S_ 32 0#32) i = 0#32 :=
    StableHlo.Predicate.bcast_scalar hb Facts.h_S_ _ i
  have b1 : broadcastInDim S1000000 ![] hb (constantI S_ 32 100000#32) i = 100000#32 :=
    StableHlo.Predicate.bcast_scalar hb Facts.h_S_ _ i
  refine toNat_lt_of_cmps (a i) ?_ ?_
  · rw [← b0]; exact e1
  · rw [← b1]; exact e2

/-! ## The whole predicate -/

/-- THE PRECONDITION DECODED: real entries, index words inside the table. The predicate is a conjunction (a chain of
    `and`s, nested to the left) of seven "all entries satisfy" reductions, one per input; each conjunct that is 1 gives
    its element fact at every index. -/
theorem of_pre [Cert.Pre_finite_inputs.Facts] (a0 : FVec Ideal S100000x128 .f32) (a1 : FVec Ideal S256x128 .f32)
    (a2 : FVec Ideal S128 .f32) (a3 : FVec Ideal S128x86 .f32) (a4 : FVec Ideal S86 .f32) (a5 a6 : IVec S1000000 32)
    (hpre : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, (a5 i).toNat < 100000) ∧ (∀ i, (a6 i).toNat < 100000) := by
  haveI := subsingleton_scalar
  have h0 := congrFun hpre ValueIdx.ix0
  dsimp only [fn, fn_part1, fn_part2] at h0
  obtain ⟨h0, h6⟩ := andi_one _ _ _ h0
  obtain ⟨h0, h5⟩ := andi_one _ _ _ h0
  obtain ⟨h0, h4⟩ := andi_one _ _ _ h0
  obtain ⟨h0, h3⟩ := andi_one _ _ _ h0
  obtain ⟨h0, h2⟩ := andi_one _ _ _ h0
  obtain ⟨h0, h1⟩ := andi_one _ _ _ h0
  exact ⟨fun i => real_of_cmp _ a0 i (Host.reduce_andi_all _ _ _ _ _ h0 i),
    fun i => real_of_cmp _ a1 i (Host.reduce_andi_all _ _ _ _ _ h1 i),
    fun i => real_of_cmp _ a2 i (Host.reduce_andi_all _ _ _ _ _ h2 i),
    fun i => real_of_cmp _ a3 i (Host.reduce_andi_all _ _ _ _ _ h3 i),
    fun i => real_of_cmp _ a4 i (Host.reduce_andi_all _ _ _ _ _ h4 i),
    fun i => row_of_cmps _ a5 i (Host.reduce_andi_all _ _ _ _ _ h5 i),
    fun i => row_of_cmps _ a6 i (Host.reduce_andi_all _ _ _ _ _ h6 i)⟩

end Cert.EdgeMlp.Pre

end
-- ==== Proof.RowGather.lean ====
/-
  A `stablehlo.gather` that takes whole ROWS of a rank-2 table (what `table[idx]` and `jnp.take(table, idx, axis=0)` lower
  to), read at one entry: result entry `(e, j)` is the table's entry `(row, j)` where `row` is start index `e` read
  as a signed integer and clamped into the table.
-/
import Idealize.ShloMosaic.PureOps.ShapeOps
import Idealize.ShloMosaic.Lib.ValueIdx

noncomputable section

namespace Cert.EdgeMlp

open Idealize.ShloMosaic Idealize.ShloMosaic.ValueIdx

/-- THE ROW GATHER AT `(e, j)`: the operand at row (start index `e`, signed, clamped into `[0, N − 1]`), column `j`.
    The hypotheses are the printed dimension numbers, each by `rfl` on a program's record. -/
theorem gather_rows_apply {α : Type} {N D R w : Nat} (hN : 0 < N)
    (d : GatherDims ⟨2, ![N, D]⟩ ⟨2, ![R, 1]⟩ ⟨2, ![R, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![R, 1]⟩ w) (e : Fin R) (j : Fin D) :
    Host.gather d x idx (ix2 e j)
      = x (ix2 (⟨min (idx (ix2 e (0 : Fin 1))).toInt.toNat (N - 1), by omega⟩ : Fin N) j) := by
  unfold Host.gather
  congr 1
  funext a
  refine Fin.ext ?_
  -- no operand axis is a batching axis
  have hb : ∀ a : Fin 2, a ∉ d.operandBatchingDims := fun a => by rw [hob]; exact List.not_mem_nil
  match a with
  | ⟨0, _⟩ =>
    -- axis 0: collapsed and start-indexed; the slice has one row, so the clamp is into [0, N - 1]
    have hk : (0 : Fin 2) ∉ d.sKept := fun h => ((d.mem_sKept 0).1 h).1 (by rw [hcoll]; exact List.mem_singleton.mpr rfl)
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0
      = min (idx (ix2 e (0 : Fin 1))).toInt.toNat (N - 1)
    rw [d.batchCoord_eq_zero _ _ (hb 0), d.offCoord_eq_zero _ _ hk]
    simp only [Nat.add_zero]
    unfold GatherDims.start
    rw [dif_pos hm]
    show min (idx _).toInt.toNat (N - d.sliceSizes 0) = min (idx (ix2 e (0 : Fin 1))).toInt.toNat (N - 1)
    rw [hsl]
    -- the start index is read at (e, 0): e from the result's one batch axis, 0 on the index vector's axis
    have hbd : ∀ X : Fin 2, X ∈ d.batchDims → X = 0 := fun X hX => by
      have h1 : X ∉ d.offsetDims := by simpa using (List.mem_filter.1 hX).2
      rw [hoff] at h1
      match X with
      | ⟨0, _⟩ => rfl
      | ⟨1, _⟩ => exact absurd (List.mem_singleton.mpr rfl) h1
    have hsi : d.siIdx (ix2 e j) ⟨d.startIndexMap.idxOf 0, List.idxOf_lt_length_iff.2 hm⟩ = ix2 e (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        have key : ∀ X : Fin 2, X ∈ d.batchDims → ((ix2 e j : (⟨2, ![R, D]⟩ : Shape).Idx) X).val = e.val := fun X hX => by
          obtain rfl := hbd X hX; rfl
        exact key _ (List.getElem_mem _)
      | ⟨1, _⟩ =>
        unfold GatherDims.siIdx
        rw [dif_pos (by rw [hivd])]
        show List.idxOf (0 : Fin 2) d.startIndexMap = 0
        rw [hsim]; exact List.idxOf_cons_self
    rw [hsi]
  | ⟨1, _⟩ =>
    -- axis 1: the one offset axis; not start-indexed, so the slice starts at 0 and the column is the result's
    have h10 : (1 : Fin 2) ∉ [(0 : Fin 2)] := by decide
    have hk : (1 : Fin 2) ∈ d.sKept := (d.mem_sKept 1).2 ⟨by rw [hcoll]; exact h10, hb 1⟩
    have hm : (1 : Fin 2) ∉ d.startIndexMap := by rw [hsim]; exact h10
    show d.start (ix2 e j) idx 1 + d.batchCoord (ix2 e j) 1 + d.offCoord (ix2 e j) 1 = j.val
    rw [d.batchCoord_eq_zero _ _ (hb 1), Nat.add_zero]
    unfold GatherDims.start
    rw [dif_neg hm, Nat.zero_add]
    unfold GatherDims.offCoord
    rw [dif_pos hk]
    have key : ∀ X : Fin 2, X ∈ d.offsetDims → ((ix2 e j : (⟨2, ![R, D]⟩ : Shape).Idx) X).val = j.val := fun X hX => by
      rw [hoff] at hX
      obtain rfl := List.mem_singleton.mp hX; rfl
    exact key _ (List.getElem_mem _)

end Cert.EdgeMlp

end
-- ==== Proof.RefValue.lean ====
/-
  The reference's result at one entry is the specification's score: its two gathers read the table's rows the index words
  name (inside the table the negative-index move and the gather's clamp do nothing), its three `dot_general`s are the
  plain sums of products, and its `relu` is the maximum with zero.
-/
import proofs.«410828_j88201448391221_3_alg».proof.Proof.Gen.ReferenceIdeal.Read
import proofs.«410828_j88201448391221_3_alg».proof.Proof.Algebra
import proofs.«410828_j88201448391221_3_alg».proof.Proof.RowGather
import Idealize.ShloMosaic.PureOps.Ideal.Laws
import Idealize.ShloMosaic.Lib.ValueIdx
import Idealize.ShloMosaic.Lib.StableHlo.Predicate

noncomputable section

namespace Cert.EdgeMlp.Ref

open Idealize.ShloMosaic Idealize.ShloMosaic.ValueIdx Cert.ReferenceIdeal Cert.ReferenceIdeal.Gen Cert.ReferenceIdeal.Read Cert.EdgeMlp

/-- An index word below 100000 is not negative, so the move of negative indices (add 100000 where the word is
    below zero) leaves it as it is. -/
theorem wrap_id {w : BitVec 32} (hw : w.toNat < 100000) :
    Scalar.select (IntOp.cmpi .slt w 0#32) (IntOp.addi w 100000#32) w = w := by
  have h0 : IntOp.cmpi .slt w 0#32 = 0#1 := eq_zero_of_ne_one fun h1 =>
    Nat.not_lt_zero _ ((StableHlo.Predicate.slt_iff_toNat (a := w) (b := 0#32) (by omega) (by decide)).1 h1)
  rw [h0, select_zero]

/-- The start index of the first gather at edge `e` is the source word itself. -/
theorem start_src (src : IVec S1000000 32) (e : Fin 1000000) (hs : (src (ix1 e)).toNat < 100000) :
    val_main_v5 (F := Ideal) src (ix2 e (0 : Fin 1)) = src (ix1 e) := by
  have hi : idx_main_v5 (ix2 e (0 : Fin 1)) = ix1 e := funext fun a => Fin.ext (by match a with | ⟨0, _⟩ => rfl)
  rw [val_main_v5_apply, hi, val_main_v4_apply, val_main_v1_apply, val_main_v3_apply, val_main_v0_apply, val_main_v2_apply,
    val_main_c_apply, val_main_c_0_apply]
  exact wrap_id hs

/-- The start index of the second gather at edge `e` is the destination word itself. -/
theorem start_dst (dst : IVec S1000000 32) (e : Fin 1000000) (hd : (dst (ix1 e)).toNat < 100000) :
    val_main_v12 (F := Ideal) dst (ix2 e (0 : Fin 1)) = dst (ix1 e) := by
  have hi : idx_main_v12 (ix2 e (0 : Fin 1)) = ix1 e := funext fun a => Fin.ext (by match a with | ⟨0, _⟩ => rfl)
  rw [val_main_v12_apply, hi, val_main_v11_apply, val_main_v8_apply, val_main_v10_apply, val_main_v7_apply, val_main_v9_apply,
    val_main_c_1_apply, val_main_c_2_apply]
  exact wrap_id hd

/-- The first gather reads the table's row the source word names. -/
theorem gather_src (h : FVec Ideal S100000x128 .f32) (src : IVec S1000000 32) (e : Fin 1000000) (j : Fin 128)
    (hs : (src (ix1 e)).toNat < 100000) :
    val_main_v6 (F := Ideal) h src (ix2 e j) = h (ix2 (rowOf (src (ix1 e))) j) := by
  unfold val_main_v6
  refine (gather_rows_apply (by decide) _ rfl rfl rfl rfl rfl h _ e j).trans ?_
  refine congrArg h (funext fun a => Fin.ext ?_)
  match a with
  | ⟨0, _⟩ =>
    show min (val_main_v5 (F := Ideal) src (ix2 e (0 : Fin 1))).toInt.toNat (100000 - 1) = (rowOf (src (ix1 e))).val
    rw [start_src src e hs]; rfl
  | ⟨1, _⟩ => rfl

/-- The second gather reads the table's row the destination word names. -/
theorem gather_dst (h : FVec Ideal S100000x128 .f32) (dst : IVec S1000000 32) (e : Fin 1000000) (j : Fin 128)
    (hd : (dst (ix1 e)).toNat < 100000) :
    val_main_v13 (F := Ideal) h dst (ix2 e j) = h (ix2 (rowOf (dst (ix1 e))) j) := by
  unfold val_main_v13
  refine (gather_rows_apply (by decide) _ rfl rfl rfl rfl rfl h _ e j).trans ?_
  refine congrArg h (funext fun a => Fin.ext ?_)
  match a with
  | ⟨0, _⟩ =>
    show min (val_main_v12 (F := Ideal) dst (ix2 e (0 : Fin 1))).toInt.toNat (100000 - 1) = (rowOf (dst (ix1 e))).val
    rw [start_dst dst e hd]; rfl
  | ⟨1, _⟩ => rfl

/-- The first layer's product with the source row: the sum over the feature index, the weights' first 128 rows. -/
theorem dot_src (h : FVec Ideal S100000x128 .f32) (W1 : FVec Ideal S256x128 .f32) (src : IVec S1000000 32)
    (e : Fin 1000000) (k : Fin 128) (hs : (src (ix1 e)).toNat < 100000) :
    val_main_v16 (F := Ideal) h W1 src (ix2 e k) = rowDot (fun j => h (ix2 (rowOf (src (ix1 e))) j)) (top W1) k := by
  rw [val_main_v16_apply]
  unfold rowDot
  refine Finset.sum_congr rfl fun j _ => ?_
  have hl : lidx_main_v16 (ix2 e k) j = ix2 e j :=
    funext fun a => Fin.ext (by match a with | ⟨0, _⟩ => rfl | ⟨1, _⟩ => rfl)
  have hr : idx_main_v14 (ridx_main_v16 (ix2 e k) j)
      = ix2 (⟨(ix2 j k 0).val, by have := idx2_lt0 (ix2 j k); omega⟩ : Fin 256) (⟨(ix2 j k 1).val, idx2_lt1 (ix2 j k)⟩ : Fin 128) :=
    funext fun a => Fin.ext (by match a with | ⟨0, _⟩ => rfl | ⟨1, _⟩ => rfl)
  rw [hl, gather_src h src e j hs, val_main_v14_apply, hr]
  rfl

/-- The first layer's product with the destination row: the weights' last 128 rows. -/
theorem dot_dst (h : FVec Ideal S100000x128 .f32) (W1 : FVec Ideal S256x128 .f32) (dst : IVec S1000000 32)
    (e : Fin 1000000) (k : Fin 128) (hd : (dst (ix1 e)).toNat < 100000) :
    val_main_v17 (F := Ideal) h W1 dst (ix2 e k) = rowDot (fun j => h (ix2 (rowOf (dst (ix1 e))) j)) (bot W1) k := by
  rw [val_main_v17_apply]
  unfold rowDot
  refine Finset.sum_congr rfl fun j _ => ?_
  have hl : lidx_main_v17 (ix2 e k) j = ix2 e j :=
    funext fun a => Fin.ext (by match a with | ⟨0, _⟩ => rfl | ⟨1, _⟩ => rfl)
  have hr : idx_main_v15 (ridx_main_v17 (ix2 e k) j)
      = ix2 (⟨128 + (ix2 j k 0).val, by have := idx2_lt0 (ix2 j k); omega⟩ : Fin 256) (⟨(ix2 j k 1).val, idx2_lt1 (ix2 j k)⟩ : Fin 128) :=
    funext fun a => Fin.ext (by match a with | ⟨0, _⟩ => rfl | ⟨1, _⟩ => rfl)
  rw [hl, gather_dst h dst e j hd, val_main_v15_apply, hr]
  rfl

/-- The hidden row of the reference at edge `e`, entry `k`: the two products, the bias, the maximum with zero. -/
theorem hidden_apply (h : FVec Ideal S100000x128 .f32) (W1 : FVec Ideal S256x128 .f32) (b1 : FVec Ideal S128 .f32)
    (src dst : IVec S1000000 32) (e : Fin 1000000) (k : Fin 128)
    (hs : (src (ix1 e)).toNat < 100000) (hd : (dst (ix1 e)).toNat < 100000) :
    val_main_v22 (F := Ideal) h W1 b1 src dst (ix2 e k)
      = hid (fun j => h (ix2 (rowOf (src (ix1 e))) j)) (fun j => h (ix2 (rowOf (dst (ix1 e))) j))
          (top W1) (bot W1) (fun k => b1 (ix1 k)) k := by
  have hb : idx_main_v19 (idx_main_v20 (ix2 e k)) = ix1 k := funext fun a => Fin.ext (by match a with | ⟨0, _⟩ => rfl)
  rw [val_main_v22_apply, val_main_call0_v0_apply, val_main_call0_cst_apply, val_main_v21_apply, val_main_v18_apply,
    val_main_v20_apply, val_main_v19_apply, hb, dot_src h W1 src e k hs, dot_dst h W1 dst e k hd,
    Ideal.maximumf_def, Ideal.addf_def, Ideal.addf_def, Ideal.ofBits_def, Ideal.ofBits_zero_f32]
  rfl

/-- THE REFERENCE IS THE SPECIFICATION, entry by entry, for index words that are rows of the table. -/
theorem ref_apply (h : FVec Ideal S100000x128 .f32) (W1 : FVec Ideal S256x128 .f32) (b1 : FVec Ideal S128 .f32)
    (W2 : FVec Ideal S128x86 .f32) (b2 : FVec Ideal S86 .f32) (src dst : IVec S1000000 32)
    (hs : ∀ i, (src i).toNat < 100000) (hd : ∀ i, (dst i).toNat < 100000) (e : Fin 1000000) (c : Fin 86) :
    val_main_v26 (F := Ideal) h W1 b1 W2 b2 src dst (ix2 e c) = scoreAt h W1 b1 W2 b2 src dst e c := by
  have hb : idx_main_v24 (idx_main_v25 (ix2 e c)) = ix1 c := funext fun a => Fin.ext (by match a with | ⟨0, _⟩ => rfl)
  rw [val_main_v26_apply, val_main_v25_apply, val_main_v24_apply, hb, val_main_v23_apply, Ideal.addf_def]
  unfold scoreAt out rowDot
  refine congrArg (· + b2 (ix1 c)) (Finset.sum_congr rfl fun k _ => ?_)
  have hl : lidx_main_v23 (ix2 e c) k = ix2 e k :=
    funext fun a => Fin.ext (by match a with | ⟨0, _⟩ => rfl | ⟨1, _⟩ => rfl)
  have hr : ridx_main_v23 (ix2 e c) k = ix2 k c :=
    funext fun a => Fin.ext (by match a with | ⟨0, _⟩ => rfl | ⟨1, _⟩ => rfl)
  rw [hl, hr, hidden_apply h W1 b1 src dst e k (hs _) (hd _)]

end Cert.EdgeMlp.Ref

end
-- ==== Proof.Payload.lean ====
/-
  What the kernel body leaves in the output block, read at one entry.
  Row `r` of the output block depends on row `r` of the two gathered feature blocks and on the whole weight blocks: the
  hidden row is the six split products plus the bias row, clipped at zero; the score is the three split products of the
  hidden row plus the second bias row. A change of float format is the identity on the extended reals and a matrix product
  into a zero accumulator is the plain sum of products.
-/
import proofs.«410828_j88201448391221_3_alg».proof.Proof.Gen.KernelIdeal.Frame
import proofs.«410828_j88201448391221_3_alg».proof.Proof.Algebra
import Idealize.ShloMosaic.PureOps.Ideal.Laws
import Idealize.ShloMosaic.Lib.ValueIdx
import Idealize.ShloMosaic.Lib.ValueLayout
import Idealize.ShloMosaic.Lib.Pipeline.Value

noncomputable section

namespace Cert.EdgeMlp.Payload

open Idealize.ShloMosaic Idealize.ShloMosaic.ValueIdx Cert.KernelIdeal Cert.KernelIdeal.Gen Cert.EdgeMlp

/-! ## The hidden layer's product: operand indices of the [8192,128] × [128,128] dot -/

theorem lhsA_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsA_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsA_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsA_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A product into a zero accumulator, read at `(r, k)`: the sum over the contracted axis of row `r` of the left
    operand against column `k` of the right one. -/
theorem mmA_apply (l : FVec Ideal S8192x128 .bf16) (rr : FVec Ideal S128x128 .bf16) (r : Fin 8192) (k : Fin 128) :
    matmul (F := Ideal) dot_S8192x128_S128x128_S8192x128_1_0_0_1_n_n none l rr (constant (F := Ideal) S8192x128 .f32 0x00000000#32) (ix2 r k)
      = ∑ j : Fin 128, l (ix2 r j) * rr (ix2 j k) := by
  refine (Ideal.matmul_constant_zero_apply dot_S8192x128_S128x128_S8192x128_1_0_0_1_n_n none l rr (ix2 r k)).trans ?_
  rw [← Equiv.sum_comp (ValueIdx.contrEquiv1 dot_S8192x128_S128x128_S8192x128_1_0_0_1_n_n 128 rfl rfl).symm]
  refine Finset.sum_congr rfl fun j _ => ?_
  have hk := ValueIdx.contrEquiv1_symm_val dot_S8192x128_S128x128_S8192x128_1_0_0_1_n_n 128 rfl rfl j
  have el : dot_S8192x128_S128x128_S8192x128_1_0_0_1_n_n.lhsIdx (ix2 r k) ((ValueIdx.contrEquiv1 dot_S8192x128_S128x128_S8192x128_1_0_0_1_n_n 128 rfl rfl).symm j) = ix2 r j := funext fun a => Fin.ext (by
    match a with
    | ⟨0, _⟩ => exact lhsA_0 _ _
    | ⟨1, _⟩ => exact (lhsA_1 _ _).trans hk)
  have er : dot_S8192x128_S128x128_S8192x128_1_0_0_1_n_n.rhsIdx (ix2 r k) ((ValueIdx.contrEquiv1 dot_S8192x128_S128x128_S8192x128_1_0_0_1_n_n 128 rfl rfl).symm j) = ix2 j k := funext fun a => Fin.ext (by
    match a with
    | ⟨0, _⟩ => exact (rhsA_0 _ _).trans hk
    | ⟨1, _⟩ => exact rhsA_1 _ _)
  rw [el, er]

/-! ## The score layer's product: operand indices of the [8192,128] × [128,86] dot -/

theorem lhsB_0 (i : S8192x86.Idx) (q : dot_S8192x128_S128x86_S8192x86_1_0_0_1_n_n.contr.Idx) :
    (dot_S8192x128_S128x86_S8192x86_1_0_0_1_n_n.lhsIdx i q 0).val = (i 0).val := by
  unfold DotDims.lhsIdx
  rw [dif_neg (show ¬(0 : Fin S8192x128.rank) ∈ dot_S8192x128_S128x86_S8192x86_1_0_0_1_n_n.lhsBatch by decide), dif_pos (show (0 : Fin S8192x128.rank) ∈ dot_S8192x128_S128x86_S8192x86_1_0_0_1_n_n.lhsNonContracting by decide)]
  rfl
theorem lhsB_1 (i : S8192x86.Idx) (q : dot_S8192x128_S128x86_S8192x86_1_0_0_1_n_n.contr.Idx) :
    (dot_S8192x128_S128x86_S8192x86_1_0_0_1_n_n.lhsIdx i q 1).val = (q ⟨0, by decide⟩).val :=
  dot_S8192x128_S128x86_S8192x86_1_0_0_1_n_n.lhsIdx_val_of_single rfl i q
theorem rhsB_0 (i : S8192x86.Idx) (q : dot_S8192x128_S128x86_S8192x86_1_0_0_1_n_n.contr.Idx) :
    (dot_S8192x128_S128x86_S8192x86_1_0_0_1_n_n.rhsIdx i q 0).val = (q ⟨0, by decide⟩).val :=
  dot_S8192x128_S128x86_S8192x86_1_0_0_1_n_n.rhsIdx_val_of_single rfl i q
theorem rhsB_1 (i : S8192x86.Idx) (q : dot_S8192x128_S128x86_S8192x86_1_0_0_1_n_n.contr.Idx) :
    (dot_S8192x128_S128x86_S8192x86_1_0_0_1_n_n.rhsIdx i q 1).val = (i 1).val := by
  unfold DotDims.rhsIdx
  rw [dif_neg (show ¬(1 : Fin S128x86.rank) ∈ dot_S8192x128_S128x86_S8192x86_1_0_0_1_n_n.rhsBatch by decide), dif_pos (show (1 : Fin S128x86.rank) ∈ dot_S8192x128_S128x86_S8192x86_1_0_0_1_n_n.rhsNonContracting by decide)]
  rfl

/-- A product into a zero accumulator, read at `(r, k)`: the sum over the contracted axis of row `r` of the left
    operand against column `k` of the right one. -/
theorem mmB_apply (l : FVec Ideal S8192x128 .bf16) (rr : FVec Ideal S128x86 .bf16) (r : Fin 8192) (k : Fin 86) :
    matmul (F := Ideal) dot_S8192x128_S128x86_S8192x86_1_0_0_1_n_n none l rr (constant (F := Ideal) S8192x86 .f32 0x00000000#32) (ix2 r k)
      = ∑ j : Fin 128, l (ix2 r j) * rr (ix2 j k) := by
  refine (Ideal.matmul_constant_zero_apply dot_S8192x128_S128x86_S8192x86_1_0_0_1_n_n none l rr (ix2 r k)).trans ?_
  rw [← Equiv.sum_comp (ValueIdx.contrEquiv1 dot_S8192x128_S128x86_S8192x86_1_0_0_1_n_n 128 rfl rfl).symm]
  refine Finset.sum_congr rfl fun j _ => ?_
  have hk := ValueIdx.contrEquiv1_symm_val dot_S8192x128_S128x86_S8192x86_1_0_0_1_n_n 128 rfl rfl j
  have el : dot_S8192x128_S128x86_S8192x86_1_0_0_1_n_n.lhsIdx (ix2 r k) ((ValueIdx.contrEquiv1 dot_S8192x128_S128x86_S8192x86_1_0_0_1_n_n 128 rfl rfl).symm j) = ix2 r j := funext fun a => Fin.ext (by
    match a with
    | ⟨0, _⟩ => exact lhsB_0 _ _
    | ⟨1, _⟩ => exact (lhsB_1 _ _).trans hk)
  have er : dot_S8192x128_S128x86_S8192x86_1_0_0_1_n_n.rhsIdx (ix2 r k) ((ValueIdx.contrEquiv1 dot_S8192x128_S128x86_S8192x86_1_0_0_1_n_n 128 rfl rfl).symm j) = ix2 j k := funext fun a => Fin.ext (by
    match a with
    | ⟨0, _⟩ => exact (rhsB_0 _ _).trans hk
    | ⟨1, _⟩ => exact rhsB_1 _ _)
  rw [el, er]

/-! ## The hidden block at one entry -/

/-- Entry `(r, k)` of the hidden block: six products of row `r` of the two feature blocks (and of their low parts
    `x - x`) with the weight blocks, plus the bias row, clipped at zero. The shape casts are of a shape to itself, the
    narrowing of the float format is the identity, and the zero splat the maximum is taken against is `0`. -/
theorem pay2_apply (x0 x1 : Vec Ideal S8192x128 .f32) (x2 x3 x4 x5 : Vec Ideal S128x128 .bf16) (x6 : Vec Ideal S1x128 .f32)
    (r : Fin 8192) (k : Fin 128) :
    k0_pay2 (F := Ideal) x0 x1 x2 x3 x4 x5 x6 (ix2 r k)
      = hidSplit (fun j => x0 (ix2 r j)) (fun j => x1 (ix2 r j)) x2 x3 x4 x5 x6 k := by
  unfold k0_pay2
  simp only [shapeCast_self]
  unfold hidSplit rowDot
  simp only [maximumf_apply, addf_apply, broadcast_apply, mmA_apply, broadcastTo_1b_ab_apply, truncf_apply, subf_apply]
  exact congrArg (max _) Ideal.ofBits_zero_f32

/-- The hidden block in the narrower float format is the hidden block: the narrowing is the identity. -/
theorem pay3_apply (x0 x1 : Vec Ideal S8192x128 .f32) (x2 x3 x4 x5 : Vec Ideal S128x128 .bf16) (x6 : Vec Ideal S1x128 .f32)
    (i : S8192x128.Idx) :
    k0_pay3 (F := Ideal) x0 x1 x2 x3 x4 x5 x6 i = k0_pay2 (F := Ideal) x0 x1 x2 x3 x4 x5 x6 i := by
  unfold k0_pay3
  exact truncf_apply _ _ _

/-! ## The score block at one entry -/

/-- Entry `(r, c)` of the score block from a hidden block `h` and its copy `hb` in the narrower format (equal to `h`
    on row `r`): the products of row `r` of the hidden block with the two weight blocks, the product of its low part
    `h - h` with the first, and the bias row. -/
theorem pay1_apply (h : FVec Ideal S8192x128 .f32) (hb : FVec Ideal S8192x128 .bf16) (x7 x8 : Vec Ideal S128x86 .bf16)
    (x9 : Vec Ideal S1x86 .f32) (r : Fin 8192) (c : Fin 86) (e : ∀ k : Fin 128, hb (ix2 r k) = h (ix2 r k)) :
    k0_pay1 (F := Ideal) h hb x7 x8 x9 (ix2 r c) = outSplit (fun k => h (ix2 r k)) x7 x8 x9 c := by
  unfold k0_pay1
  simp only [shapeCast_self]
  unfold outSplit rowDot
  simp only [addf_apply, mmB_apply, broadcastTo_1b_ab_apply, truncf_apply, subf_apply, e]

/-! ## The stored block -/

/- The body stores the whole block once, from whole-block loads, so the stored block is the score payload of the loaded
   blocks: the score block of the hidden block, which is the same in both float formats. -/
/-- Entry `(r, c)` of the output block the body stores, from the ten input blocks. -/
theorem out0_10_apply (x0 x1 : Vec Ideal S8192x128 .f32) (x2 x3 x4 x5 : Vec Ideal S128x128 .bf16) (x6 : Vec Ideal S1x128 .f32)
    (x7 x8 : Vec Ideal S128x86 .bf16) (x9 : Vec Ideal S1x86 .f32) (r : Fin 8192) (c : Fin 86) :
    out0_10 (F := Ideal) x0 x1 x2 x3 x4 x5 x6 x7 x8 x9 (ix2 r c)
      = outSplit (fun k => hidSplit (fun j => x0 (ix2 r j)) (fun j => x1 (ix2 r j)) x2 x3 x4 x5 x6 k) x7 x8 x9 c := by
  have hz : (![0, 0] : Fin 2 → Nat) = fun _ => 0 := funext fun a => by fin_cases a <;> rfl
  unfold out0_10
  rw [View.canon_unit_zero hz]
  simp only [View.ld_unit_zero (S := S8192x128) hz, View.ld_unit_zero (S := S128x128) hz, View.ld_unit_zero (S := S1x128) hz,
    View.ld_unit_zero (S := S128x86) hz, View.ld_unit_zero (S := S1x86) hz]
  refine (pay1_apply _ _ x7 x8 x9 r c fun k => pay3_apply x0 x1 x2 x3 x4 x5 x6 (ix2 r k)).trans ?_
  exact congrArg (fun hd => outSplit hd x7 x8 x9 c) (funext fun k => pay2_apply x0 x1 x2 x3 x4 x5 x6 r k)

end Cert.EdgeMlp.Payload

end
-- ==== Proof.Blocks.lean ====
/-
  From blocks to the array. The grid has 123 points; point `t` reads rows `8192 t … 8192 t + 8191` of the two gathered
  feature arrays and the eight small operand arrays whole, and writes rows `8192 t … 8192 t + 8191` of the result array.
  Row `e` of what a point writes depends only on row `e` of the feature arrays, so every point writes its block of ONE
  function of the whole operand arrays (`wholeOut`), and the 123 blocks tile the result array: after the region the
  result array IS that function.
-/
import proofs.«410828_j88201448391221_3_alg».proof.Proof.Gen.KernelIdeal.Frame
import proofs.«410828_j88201448391221_3_alg».proof.Proof.Algebra
import proofs.«410828_j88201448391221_3_alg».proof.Proof.Arrays
import proofs.«410828_j88201448391221_3_alg».proof.Proof.Payload
import Idealize.ShloMosaic.PureOps.Ideal
import Idealize.ShloMosaic.Lib.Pipeline.Value
import Idealize.ShloMosaic.Lib.ValueIdx

noncomputable section

namespace Cert.EdgeMlp.Blocks

open Idealize.ShloMosaic Idealize.ShloMosaic.TcCoe Idealize.SL.Sem Idealize.ShloMosaic.ValueIdx
open Cert.KernelIdeal Cert.KernelIdeal.Gen Cert.EdgeMlp Cert.EdgeMlp.Arr
open Idealize.ShloMosaic.Pipeline (Dat)

/-- The result array as one function of the whole operand arrays: row `e` from row `e` of the two feature arrays. -/
def wholeOut (HU HV : Mat 1007616 128) (Ah Al Bh Bl : Mat 128 128) (b1r : Mat 1 128) (Ch Cl : Mat 128 86) (b2r : Mat 1 86) :
    Mat 1007616 86 := fun i =>
  outSplit (fun k => hidSplit (fun j => HU (ix2 (⟨(i 0).val, idx2_lt0 i⟩ : Fin 1007616) j))
      (fun j => HV (ix2 (⟨(i 0).val, idx2_lt0 i⟩ : Fin 1007616) j)) Ah Al Bh Bl b1r k) Ch Cl b2r (⟨(i 1).val, idx2_lt1 i⟩ : Fin 86)

/-- `wholeOut` at an index whose coordinates are `e` and `cc`. -/
theorem wholeOut_at (HU HV : Mat 1007616 128) (Ah Al Bh Bl : Mat 128 128) (b1r : Mat 1 128) (Ch Cl : Mat 128 86) (b2r : Mat 1 86)
    (i : (⟨2, ![1007616, 86]⟩ : Shape).Idx) (e : Fin 1007616) (cc : Fin 86) (h0 : (i 0).val = e.val) (h1 : (i 1).val = cc.val) :
    wholeOut HU HV Ah Al Bh Bl b1r Ch Cl b2r i
      = outSplit (fun k => hidSplit (fun j => HU (ix2 e j)) (fun j => HV (ix2 e j)) Ah Al Bh Bl b1r k) Ch Cl b2r cc := by
  have he : (⟨(i 0).val, idx2_lt0 i⟩ : Fin 1007616) = e := Fin.ext h0
  have hc : (⟨(i 1).val, idx2_lt1 i⟩ : Fin 86) = cc := Fin.ext h1
  unfold wholeOut
  rw [he, hc]

variable (m : (ℓ : Loc nD τ sig) → Buf (Elt Ideal) ℓ)

/-- The printed index maps over the grid: the two feature windows and the result window move with the point along the
    rows; every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem hN : cfg0.N = 123 := N_0

/-- Row `r` of feature window 0's block at point `t` is row `8192 t + r` of the window's array, whatever it holds. -/
theorem rowsU_read (A : Mat 1007616 128) (t : Fin cfg0.N) (r : Fin 8192) (j : Fin 128) (e : Fin 1007616)
    (he : e.val = t.val * 8192 + r.val) :
    (((cfg0.win 0).blk t).view.read (Elt Ideal) A : Vec Ideal S8192x128 .f32) (ix2 r j) = A (ix2 e j) := by
  obtain ⟨h0, h1, -⟩ := idx_facts t
  rw [View.read_apply]
  show A _ = A _
  refine congrArg A ?_
  funext a
  apply Fin.ext
  match a with
  | ⟨0, _⟩ => show win0_0.index t (0 : Fin 2) * 8192 + 1 * r.val = e.val; rw [h0, he]; omega
  | ⟨1, _⟩ => show win0_0.index t (1 : Fin 2) * 128 + 1 * j.val = j.val; rw [h1]; omega

/-- Row `r` of feature window 1's block at point `t` is row `8192 t + r` of the window's array, whatever it holds. -/
theorem rowsV_read (A : Mat 1007616 128) (t : Fin cfg0.N) (r : Fin 8192) (j : Fin 128) (e : Fin 1007616)
    (he : e.val = t.val * 8192 + r.val) :
    (((cfg0.win 1).blk t).view.read (Elt Ideal) A : Vec Ideal S8192x128 .f32) (ix2 r j) = A (ix2 e j) := by
  obtain ⟨-, -, h0, h1, -⟩ := idx_facts t
  rw [View.read_apply]
  show A _ = A _
  refine congrArg A ?_
  funext a
  apply Fin.ext
  match a with
  | ⟨0, _⟩ => show win0_1.index t (0 : Fin 2) * 8192 + 1 * r.val = e.val; rw [h0, he]; omega
  | ⟨1, _⟩ => show win0_1.index t (1 : Fin 2) * 128 + 1 * j.val = j.val; rw [h1]; omega

/-! A window that stays on its one block reads its whole array. -/

theorem whole2_read (A : Mat 128 128) (t : Fin cfg0.N) :
    (((cfg0.win 2).blk t).view.read (Elt Ideal) A : Vec Ideal S128x128 .bf16) = A := by
  obtain ⟨-, -, -, -, h0, h1, -⟩ := idx_facts t
  funext y
  rw [View.read_apply]
  show A _ = A y
  refine congrArg A ?_
  funext a
  apply Fin.ext
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

theorem whole3_read (A : Mat 128 128) (t : Fin cfg0.N) :
    (((cfg0.win 3).blk t).view.read (Elt Ideal) A : Vec Ideal S128x128 .bf16) = A := by
  obtain ⟨-, -, -, -, -, -, h0, h1, -⟩ := idx_facts t
  funext y
  rw [View.read_apply]
  show A _ = A y
  refine congrArg A ?_
  funext a
  apply Fin.ext
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

theorem whole4_read (A : Mat 128 128) (t : Fin cfg0.N) :
    (((cfg0.win 4).blk t).view.read (Elt Ideal) A : Vec Ideal S128x128 .bf16) = A := by
  obtain ⟨-, -, -, -, -, -, -, -, h0, h1, -⟩ := idx_facts t
  funext y
  rw [View.read_apply]
  show A _ = A y
  refine congrArg A ?_
  funext a
  apply Fin.ext
  match a with
  | ⟨0, _⟩ => show win0_4.index t (0 : Fin 2) * 128 + 1 * (y 0).val = (y 0).val; rw [h0]; omega
  | ⟨1, _⟩ => show win0_4.index t (1 : Fin 2) * 128 + 1 * (y 1).val = (y 1).val; rw [h1]; omega

theorem whole5_read (A : Mat 128 128) (t : Fin cfg0.N) :
    (((cfg0.win 5).blk t).view.read (Elt Ideal) A : Vec Ideal S128x128 .bf16) = A := by
  obtain ⟨-, -, -, -, -, -, -, -, -, -, h0, h1, -⟩ := idx_facts t
  funext y
  rw [View.read_apply]
  show A _ = A y
  refine congrArg A ?_
  funext a
  apply Fin.ext
  match a with
  | ⟨0, _⟩ => show win0_5.index t (0 : Fin 2) * 128 + 1 * (y 0).val = (y 0).val; rw [h0]; omega
  | ⟨1, _⟩ => show win0_5.index t (1 : Fin 2) * 128 + 1 * (y 1).val = (y 1).val; rw [h1]; omega

theorem whole6_read (A : Mat 1 128) (t : Fin cfg0.N) :
    (((cfg0.win 6).blk t).view.read (Elt Ideal) A : Vec Ideal S1x128 .f32) = A := by
  obtain ⟨-, -, -, -, -, -, -, -, -, -, -, -, h0, h1, -⟩ := idx_facts t
  funext y
  rw [View.read_apply]
  show A _ = A y
  refine congrArg A ?_
  funext a
  apply Fin.ext
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

theorem whole7_read (A : Mat 128 86) (t : Fin cfg0.N) :
    (((cfg0.win 7).blk t).view.read (Elt Ideal) A : Vec Ideal S128x86 .bf16) = A := by
  obtain ⟨-, -, -, -, -, -, -, -, -, -, -, -, -, -, h0, h1, -⟩ := idx_facts t
  funext y
  rw [View.read_apply]
  show A _ = A y
  refine congrArg A ?_
  funext a
  apply Fin.ext
  match a with
  | ⟨0, _⟩ => show win0_7.index t (0 : Fin 2) * 128 + 1 * (y 0).val = (y 0).val; rw [h0]; omega
  | ⟨1, _⟩ => show win0_7.index t (1 : Fin 2) * 86 + 1 * (y 1).val = (y 1).val; rw [h1]; omega

theorem whole8_read (A : Mat 128 86) (t : Fin cfg0.N) :
    (((cfg0.win 8).blk t).view.read (Elt Ideal) A : Vec Ideal S128x86 .bf16) = A := by
  obtain ⟨-, -, -, -, -, -, -, -, -, -, -, -, -, -, -, -, h0, h1, -⟩ := idx_facts t
  funext y
  rw [View.read_apply]
  show A _ = A y
  refine congrArg A ?_
  funext a
  apply Fin.ext
  match a with
  | ⟨0, _⟩ => show win0_8.index t (0 : Fin 2) * 128 + 1 * (y 0).val = (y 0).val; rw [h0]; omega
  | ⟨1, _⟩ => show win0_8.index t (1 : Fin 2) * 86 + 1 * (y 1).val = (y 1).val; rw [h1]; omega

theorem whole9_read (A : Mat 1 86) (t : Fin cfg0.N) :
    (((cfg0.win 9).blk t).view.read (Elt Ideal) A : Vec Ideal S1x86 .f32) = A := by
  obtain ⟨-, -, -, -, -, -, -, -, -, -, -, -, -, -, -, -, -, -, h0, h1, -⟩ := idx_facts t
  funext y
  rw [View.read_apply]
  show A _ = A y
  refine congrArg A ?_
  funext a
  apply Fin.ext
  match a with
  | ⟨0, _⟩ => show win0_9.index t (0 : Fin 2) * 1 + 1 * (y 0).val = (y 0).val; rw [h0]; omega
  | ⟨1, _⟩ => show win0_9.index t (1 : Fin 2) * 86 + 1 * (y 1).val = (y 1).val; rw [h1]; omega

/-- ENTRY `(r, cc)` OF WHAT POINT `t` STORES, from the blocks it reads of ANY ten arrays, is `wholeOut` of those arrays at
    the entry's place in the result array: row `8192 t + r`, column `cc`. -/
theorem block_apply (A0 A1 : Mat 1007616 128) (A2 A3 A4 A5 : Mat 128 128) (A6 : Mat 1 128) (A7 A8 : Mat 128 86) (A9 : Mat 1 86)
    (t : Fin cfg0.N) (r : Fin 8192) (cc : Fin 86) :
    out0_10 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) (((cfg0.win 7).blk t).view.read (Elt Ideal) A7)
        (((cfg0.win 8).blk t).view.read (Elt Ideal) A8) (((cfg0.win 9).blk t).view.read (Elt Ideal) A9) (ix2 r cc)
      = wholeOut A0 A1 A2 A3 A4 A5 A6 A7 A8 A9 (((cfg0.win 10).blk t).view.emb (ix2 r cc)) := by
  obtain ⟨-, -, -, -, -, -, -, -, -, -, -, -, -, -, -, -, -, -, -, -, h0, h1⟩ := idx_facts t
  have hlt : t.val * 8192 + r.val < 1007616 := by have ht := t.isLt; have hN' : cfg0.N = 123 := hN; omega
  rw [wholeOut_at A0 A1 A2 A3 A4 A5 A6 A7 A8 A9 _ (⟨t.val * 8192 + r.val, hlt⟩ : Fin 1007616) cc
    (by show win0_10.index t (0 : Fin 2) * 8192 + 1 * r.val = t.val * 8192 + r.val; rw [h0]; omega)
    (by show win0_10.index t (1 : Fin 2) * 86 + 1 * cc.val = cc.val; rw [h1]; omega)]
  rw [Payload.out0_10_apply, whole2_read, whole3_read, whole4_read, whole5_read, whole6_read, whole7_read, whole8_read, whole9_read]
  have eU : (fun j : Fin 128 => (((cfg0.win 0).blk t).view.read (Elt Ideal) A0 : Vec Ideal S8192x128 .f32) (ix2 r j))
      = fun j => A0 (ix2 (⟨t.val * 8192 + r.val, hlt⟩ : Fin 1007616) j) := funext fun j => rowsU_read A0 t r j _ rfl
  have eV : (fun j : Fin 128 => (((cfg0.win 1).blk t).view.read (Elt Ideal) A1 : Vec Ideal S8192x128 .f32) (ix2 r j))
      = fun j => A1 (ix2 (⟨t.val * 8192 + r.val, hlt⟩ : Fin 1007616) j) := funext fun j => rowsV_read A1 t r j _ rfl
  rw [eU, eV]

/-- WHAT POINT `t` STORES, from the blocks it reads of ANY ten arrays, is block `t` of `wholeOut` of those arrays. -/
theorem block_eq (A0 A1 : Mat 1007616 128) (A2 A3 A4 A5 : Mat 128 128) (A6 : Mat 1 128) (A7 A8 : Mat 128 86) (A9 : Mat 1 86)
    (t : Fin cfg0.N) :
    (cfg0.win 10).cut (grid0.coords t)
        (out0_10 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (((cfg0.win 7).blk t).view.read (Elt Ideal) A7)
          (((cfg0.win 8).blk t).view.read (Elt Ideal) A8) (((cfg0.win 9).blk t).view.read (Elt Ideal) A9))
      = ((cfg0.win 10).blk t).view.read (Elt Ideal) (wholeOut A0 A1 A2 A3 A4 A5 A6 A7 A8 A9) := by
  funext y
  obtain ⟨r, cc, rfl⟩ : ∃ (r : Fin 8192) (cc : Fin 86), y = ix2 r cc := ⟨y 0, y 1, eq_ix2 y⟩
  rw [View.read_apply]
  exact block_apply A0 A1 A2 A3 A4 A5 A6 A7 A8 A9 t r cc

/-! Each window's block at a point is the block of the array the region finds under the window. -/

set_option maxHeartbeats 100000 in
theorem iblk0_eq (c : Dev nD) (t : Fin cfg0.N) : iblk m c 0 t = ((cfg0.win 0).blk t).view.read (Elt Ideal) (HU m c) := rfl
set_option maxHeartbeats 100000 in
theorem iblk1_eq (c : Dev nD) (t : Fin cfg0.N) : iblk m c 1 t = ((cfg0.win 1).blk t).view.read (Elt Ideal) (HV m c) := rfl
set_option maxHeartbeats 100000 in
theorem iblk2_eq (c : Dev nD) (t : Fin cfg0.N) : iblk m c 2 t = ((cfg0.win 2).blk t).view.read (Elt Ideal) (Ah m c) := rfl
set_option maxHeartbeats 100000 in
theorem iblk3_eq (c : Dev nD) (t : Fin cfg0.N) : iblk m c 3 t = ((cfg0.win 3).blk t).view.read (Elt Ideal) (Al m c) := rfl
set_option maxHeartbeats 100000 in
theorem iblk4_eq (c : Dev nD) (t : Fin cfg0.N) : iblk m c 4 t = ((cfg0.win 4).blk t).view.read (Elt Ideal) (Bh m c) := rfl
set_option maxHeartbeats 100000 in
theorem iblk5_eq (c : Dev nD) (t : Fin cfg0.N) : iblk m c 5 t = ((cfg0.win 5).blk t).view.read (Elt Ideal) (Bl m c) := rfl
set_option maxHeartbeats 100000 in
theorem iblk6_eq (c : Dev nD) (t : Fin cfg0.N) : iblk m c 6 t = ((cfg0.win 6).blk t).view.read (Elt Ideal) (B1 m c) := rfl
set_option maxHeartbeats 100000 in
theorem iblk7_eq (c : Dev nD) (t : Fin cfg0.N) : iblk m c 7 t = ((cfg0.win 7).blk t).view.read (Elt Ideal) (Ch m c) := rfl
set_option maxHeartbeats 100000 in
theorem iblk8_eq (c : Dev nD) (t : Fin cfg0.N) : iblk m c 8 t = ((cfg0.win 8).blk t).view.read (Elt Ideal) (Cl m c) := rfl
set_option maxHeartbeats 100000 in
theorem iblk9_eq (c : Dev nD) (t : Fin cfg0.N) : iblk m c 9 t = ((cfg0.win 9).blk t).view.read (Elt Ideal) (B2 m c) := rfl

set_option maxHeartbeats 200000 in
/-- WHAT POINT `t` WRITES BACK is block `t` of `wholeOut` of the operand arrays as the region finds them. -/
theorem flushed_eq (c : Dev nD) (t : Fin cfg0.N) :
    (dats m 0 c).flushed 10 t = ((cfg0.win 10).blk t).view.read (Elt Ideal)
      (wholeOut (HU m c) (HV m c) (Ah m c) (Al m c) (Bh m c) (Bl m c) (B1 m c) (Ch m c) (Cl m c) (B2 m c)) := by
  show (cfg0.win 10).cut (grid0.coords t) ((dats m 0 c).after 10 t) = _
  rw [after0_10, iblk0_eq, iblk1_eq, iblk2_eq, iblk3_eq, iblk4_eq, iblk5_eq, iblk6_eq, iblk7_eq, iblk8_eq, iblk9_eq]
  exact block_eq (HU m c) (HV m c) (Ah m c) (Al m c) (Bh m c) (Bl m c) (B1 m c) (Ch m c) (Cl m c) (B2 m c) t

/-- An index of the result array is in point `t`'s block iff each coordinate is in the block's range on its axis. -/
theorem mem_blk (t : Fin cfg0.N) (i : S1007616x86.Idx) :
    i ∈ ((cfg0.win 10).blk t).view.set ↔ ∀ a : Fin 2, win0_10.index t a * S8192x86.size a ≤ (i a).val ∧ (i a).val < win0_10.index t a * S8192x86.size a + S8192x86.size a := by
  show i ∈ ((View.whole main_v20).slice (win0_10.rect t)).set ↔ _
  rw [View.set_slice_whole, Rect.mem_set_unit]
  exact Iff.rfl

/-- The 123 blocks tile the result array: row `e` lies in the block of point `e / 8192`. -/
theorem covered (i : S1007616x86.Idx) :
    ∃ t : Fin cfg0.N, (cfg0.win 10).flush t = true ∧ i ∈ ((cfg0.win 10).blk t).view.set := by
  have hi0 : (i 0).val < 1007616 := (i 0).isLt
  have hi1 : (i 1).val < 86 := (i 1).isLt
  have hq : (i 0).val / 8192 < cfg0.N := by have hN' : cfg0.N = 123 := hN; omega
  obtain ⟨-, -, -, -, -, -, -, -, -, -, -, -, -, -, -, -, -, -, -, -, h0, h1⟩ := idx_facts ⟨(i 0).val / 8192, hq⟩
  refine ⟨⟨(i 0).val / 8192, hq⟩, flush0_10 _, ?_⟩
  rw [mem_blk]
  intro a
  match a with
  | ⟨0, _⟩ =>
    show win0_10.index ⟨(i 0).val / 8192, hq⟩ (0 : Fin 2) * 8192 ≤ (i 0).val
      ∧ (i 0).val < win0_10.index ⟨(i 0).val / 8192, hq⟩ (0 : Fin 2) * 8192 + 8192
    rw [h0]; show (i 0).val / 8192 * 8192 ≤ (i 0).val ∧ (i 0).val < (i 0).val / 8192 * 8192 + 8192; omega
  | ⟨1, _⟩ =>
    show win0_10.index ⟨(i 0).val / 8192, hq⟩ (1 : Fin 2) * 86 ≤ (i 1).val
      ∧ (i 1).val < win0_10.index ⟨(i 0).val / 8192, hq⟩ (1 : Fin 2) * 86 + 86
    rw [h1]; omega

/-- THE RESULT ARRAY AFTER THE REGION is `wholeOut` of the operand arrays as the region found them. -/
theorem final (c : Dev nD) : (dats m 0 c).arrAt 10 cfg0.N
    = wholeOut (HU m c) (HV m c) (Ah m c) (Al m c) (Bh m c) (Bl m c) (B1 m c) (Ch m c) (Cl m c) (B2 m c) :=
  (dats m 0 c).arrAt_eq_of_cover 10 _ (fun t _ => flushed_eq m c t) covered

end Cert.EdgeMlp.Blocks

end
-- ==== Proof.Tail.lean ====
/-
  After the region the host keeps the first 1000000 rows of the 1007616-row result array (the rows of the zero-padded
  edges are dropped): the program's result at entry `(e, c)` is the region's result array at `(e, c)`.
-/
import proofs.«410828_j88201448391221_3_alg».proof.Proof.Gen.KernelIdeal.Frame
import proofs.«410828_j88201448391221_3_alg».proof.Proof.Algebra
import proofs.«410828_j88201448391221_3_alg».proof.Proof.Arrays
import proofs.«410828_j88201448391221_3_alg».proof.Proof.Blocks
import Idealize.ShloMosaic.PureOps.Ideal
import Idealize.ShloMosaic.Lib.StableHlo.Run
import Idealize.ShloMosaic.Lib.Pipeline.Value
import Idealize.ShloMosaic.Lib.ValueIdx

noncomputable section

namespace Cert.EdgeMlp.Tail

open Idealize.ShloMosaic Idealize.ShloMosaic.TcCoe Idealize.SL.Sem Idealize.ShloMosaic.ValueIdx Idealize.ShloMosaic.StableHlo
open Cert.KernelIdeal Cert.KernelIdeal.Gen Cert.EdgeMlp Cert.EdgeMlp.Arr Cert.EdgeMlp.Blocks

variable (m : (ℓ : Loc nD τ sig) → Buf (Elt Ideal) ℓ)

/-- THE PROGRAM'S RESULT, entry by entry, in any final state of the frame run. -/
theorem result_apply (c : Dev nD) (r : PUnit × MemSt nD τ sig (Elt Ideal))
    (hr : Pipeline.FramePost cfgs (dats m) 0 (Pipeline.afterTail₀ cfgs (dats m) 0 (V0 m) [hostOps1]) r)
    (e : Fin 1000000) (cc : Fin 86) :
    (r.2.mem ((c : Thread nD τ).loc main_v21) : (⟨2, ![1000000, 86]⟩ : Shape).Idx → EReal) (ix2 e cc)
      = wholeOut (HU m c) (HV m c) (Ah m c) (Al m c) (Bh m c) (Bl m c) (B1 m c) (Ch m c) (Cl m c) (B2 m c)
          (ix2 (⟨e.val, by omega⟩ : Fin 1007616) cc) := by
  -- the result buffer is no window's array: the frame run's post gives it as the host tail's value
  have h1 := (hr c).2 main_v21 (Pipeline.mem_restRefs_of main_v21 (by decide) (by decide))
  -- the tail is one slice, applied to the region's result array (window 10's), which is `wholeOut` of the operand arrays
  have h2 : Pipeline.afterTail₀ cfgs (dats m) 0 (V0 m) [hostOps1] c main_v21
      = extractStridedSlice S1000000x86 ![0, 0]
          (wholeOut (HU m c) (HV m c) (Ah m c) (Al m c) (Bh m c) (Bl m c) (B1 m c) (Ch m c) (Cl m c) (B2 m c))
          slices_S1007616x86_S1000000x86_0_0 := by
    unfold Pipeline.afterTail₀
    show StableHlo.after hostOps1 _ (Proc.devRef .tc main_v21) = _
    after_results
    refine congrArg (fun x : S1007616x86.Idx → EReal => extractStridedSlice S1000000x86 ![0, 0] x slices_S1007616x86_S1000000x86_0_0) ?_
    refine (Pipeline.withArrays_arr spec0 launch0.win.arr_inj c _ _ 10).trans ?_
    exact Blocks.final m c
  refine (congrFun (h1.trans h2) (ix2 e cc)).trans ?_
  generalize wholeOut (HU m c) (HV m c) (Ah m c) (Al m c) (Bh m c) (Bl m c) (B1 m c) (Ch m c) (Cl m c) (B2 m c) = G
  -- the slice starts at (0, 0): entry (e, cc) of it is entry (e, cc) of the array
  exact extractStridedSlice_apply ![0, 0] G slices_S1007616x86_S1000000x86_0_0 (ix2 e cc)
    (ix2 (⟨e.val, by omega⟩ : Fin 1007616) cc) (fun a => match a with
      | ⟨0, _⟩ => by show e.val = 0 + e.val; omega
      | ⟨1, _⟩ => by show cc.val = 0 + cc.val; omega)

end Cert.EdgeMlp.Tail

end
-- ==== Proof.HostSmall.lean ====
/-
  The eight small operand arrays of the pallas_call, as the region finds them. The host splits each weight matrix into a
  "high" part, the matrix in the narrower float format, and a "low" part, the matrix minus its high part widened back, again
  narrowed. On the extended reals a change of format is the identity, so the high part IS the matrix (its first or last 128
  rows for the first layer) and the low part is the matrix minus itself, entry by entry. The two bias vectors are reshaped
  to one-row matrices.
-/
import proofs.«410828_j88201448391221_3_alg».proof.Proof.Gen.KernelIdeal.Frame
import proofs.«410828_j88201448391221_3_alg».proof.Proof.Algebra
import proofs.«410828_j88201448391221_3_alg».proof.Proof.Arrays
import Idealize.ShloMosaic.PureOps.Ideal
import Idealize.ShloMosaic.Lib.StableHlo.Run
import Idealize.ShloMosaic.Lib.Pipeline.Value
import Idealize.ShloMosaic.Lib.ValueIdx
import Idealize.ShloMosaic.Lib.ValueLayout

noncomputable section

namespace Cert.EdgeMlp.HostSmall

open Idealize.ShloMosaic Idealize.ShloMosaic.TcCoe Idealize.SL.Sem Idealize.ShloMosaic.ValueIdx Idealize.ShloMosaic.StableHlo
open Cert.KernelIdeal Cert.KernelIdeal.Gen Cert.EdgeMlp Cert.EdgeMlp.Arr

variable (m : (ℓ : Loc nD τ sig) → Buf (Elt Ideal) ℓ)

/-! ## A slice of the first layer's weights is its first or its last 128 rows -/

/-- Rows 0 to 127: the slice at offsets `(0, 0)` reads entry `(i, j)` at `(i, j)`. -/
theorem slice_top (W : Mat 256 128) (hs : S256x128.Slices ![0, 0] S128x128) (i : S128x128.Idx) :
    extractStridedSlice S128x128 ![0, 0] W hs i = top W i := by
  unfold top
  exact extractStridedSlice_apply ![0, 0] W hs i _ (fun a => match a with
    | ⟨0, _⟩ => by show (i 0).val = 0 + (i 0).val; omega
    | ⟨1, _⟩ => by show (i 1).val = 0 + (i 1).val; omega)

/-- Rows 128 to 255: the slice at offsets `(128, 0)` reads entry `(i, j)` at `(128 + i, j)`. -/
theorem slice_bot (W : Mat 256 128) (hs : S256x128.Slices ![128, 0] S128x128) (i : S128x128.Idx) :
    extractStridedSlice S128x128 ![128, 0] W hs i = bot W i := by
  unfold bot
  exact extractStridedSlice_apply ![128, 0] W hs i _ (fun a => match a with
    | ⟨0, _⟩ => by show 128 + (i 0).val = 128 + (i 0).val; omega
    | ⟨1, _⟩ => by show (i 1).val = 0 + (i 1).val; omega)

/-! ## Each array as the host operations' term

A high part is the matrix (for the first layer, a 128-row slice of it) narrowed; a low part is the same matrix minus its
high part widened back, the difference narrowed again; a bias array is the bias vector reshaped to one row. -/

theorem Ah_read (c : Dev nD) :
    Ah m c = truncf (F := Ideal) .bf16 (extractStridedSlice S128x128 ![0, 0] (W1 m c) Facts₀.slices_S256x128_S128x128_0_0) Facts₀.bitsLt_bf16_f32 := by
  dsimp only [Ah, W1, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results

theorem Al_read (c : Dev nD) :
    Al m c = truncf (F := Ideal) .bf16 (subf (extractStridedSlice S128x128 ![0, 0] (W1 m c) Facts₀.slices_S256x128_S128x128_0_0)
      (extf .f32 (truncf .bf16 (extractStridedSlice S128x128 ![0, 0] (W1 m c) Facts₀.slices_S256x128_S128x128_0_0) Facts₀.bitsLt_bf16_f32) Facts₀.bitsLt_bf16_f32)) Facts₀.bitsLt_bf16_f32 := by
  dsimp only [Al, W1, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results

theorem Bh_read (c : Dev nD) :
    Bh m c = truncf (F := Ideal) .bf16 (extractStridedSlice S128x128 ![128, 0] (W1 m c) Facts₀.slices_S256x128_S128x128_128_0) Facts₀.bitsLt_bf16_f32 := by
  dsimp only [Bh, W1, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results

theorem Bl_read (c : Dev nD) :
    Bl m c = truncf (F := Ideal) .bf16 (subf (extractStridedSlice S128x128 ![128, 0] (W1 m c) Facts₀.slices_S256x128_S128x128_128_0)
      (extf .f32 (truncf .bf16 (extractStridedSlice S128x128 ![128, 0] (W1 m c) Facts₀.slices_S256x128_S128x128_128_0) Facts₀.bitsLt_bf16_f32) Facts₀.bitsLt_bf16_f32)) Facts₀.bitsLt_bf16_f32 := by
  dsimp only [Bl, W1, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results

theorem Ch_read (c : Dev nD) : Ch m c = truncf (F := Ideal) .bf16 (W2 m c) Facts₀.bitsLt_bf16_f32 := by
  dsimp only [Ch, W2, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results

theorem Cl_read (c : Dev nD) :
    Cl m c = truncf (F := Ideal) .bf16 (subf (W2 m c) (extf .f32 (truncf .bf16 (W2 m c) Facts₀.bitsLt_bf16_f32) Facts₀.bitsLt_bf16_f32)) Facts₀.bitsLt_bf16_f32 := by
  dsimp only [Cl, W2, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results

theorem B1_read (c : Dev nD) : B1 m c = shapeCast S1x128 (b1 m c) Facts₀.shapeCasts_S128_S1x128 := by
  dsimp only [B1, b1, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

theorem B2_read (c : Dev nD) : B2 m c = shapeCast S1x86 (b2 m c) Facts₀.shapeCasts_S86_S1x86 := by
  dsimp only [B2, b2, Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-! ## The arrays, entry by entry: a change of float format is the identity on the extended reals -/

theorem Ah_eq (c : Dev nD) : Ah m c = top (W1 m c) := by
  refine (Ah_read m c).trans ?_
  funext i
  simp only [truncf_apply, slice_top]

theorem Al_eq (c : Dev nD) : Al m c = fun i => top (W1 m c) i - top (W1 m c) i := by
  refine (Al_read m c).trans ?_
  funext i
  simp only [truncf_apply, subf_apply, extf_apply, slice_top]

theorem Bh_eq (c : Dev nD) : Bh m c = bot (W1 m c) := by
  refine (Bh_read m c).trans ?_
  funext i
  simp only [truncf_apply, slice_bot]

theorem Bl_eq (c : Dev nD) : Bl m c = fun i => bot (W1 m c) i - bot (W1 m c) i := by
  refine (Bl_read m c).trans ?_
  funext i
  simp only [truncf_apply, subf_apply, extf_apply, slice_bot]

theorem Ch_eq (c : Dev nD) : Ch m c = W2 m c := by
  refine (Ch_read m c).trans ?_
  funext i
  exact truncf_apply _ _ _

theorem Cl_eq (c : Dev nD) : Cl m c = fun i => W2 m c i - W2 m c i := by
  refine (Cl_read m c).trans ?_
  funext i
  simp only [truncf_apply, subf_apply, extf_apply]

theorem B1_apply (c : Dev nD) (k : Fin 128) : B1 m c (ix2 (0 : Fin 1) k) = b1 m c (ix1 k) := by
  refine (congrFun (B1_read m c) _).trans ?_
  exact shapeCast_a_1a_apply (b1 m c) _ 0 k

theorem B2_apply (c : Dev nD) (k : Fin 86) : B2 m c (ix2 (0 : Fin 1) k) = b2 m c (ix1 k) := by
  refine (congrFun (B2_read m c) _).trans ?_
  exact shapeCast_a_1a_apply (b2 m c) _ 0 k

end Cert.EdgeMlp.HostSmall

end
-- ==== Proof.TakeRows.lean ====
/-
  The rows the kernel's program gathers on the host before its pallas_call: `jnp.take(h, idx, axis=0)` in jnp's "fill"
  mode over the index vector padded with zeros to a whole number of tiles. A negative index word is first moved up by the
  table's length; a row whose (moved) index is outside the table is filled with the NaN pattern, every other row is the
  table's row (the gather itself clamps, but inside the table the clamp does nothing). For index words that are rows of the
  table, every one of the first 1000000 rows is therefore the table's row.
-/
import proofs.«410828_j88201448391221_3_alg».proof.KernelIdeal
import proofs.«410828_j88201448391221_3_alg».proof.Proof.Algebra
import proofs.«410828_j88201448391221_3_alg».proof.Proof.RowGather
import Idealize.ShloMosaic.PureOps.Ideal
import Idealize.ShloMosaic.Lib.ValueIdx
import Idealize.ShloMosaic.Lib.Pipeline.Value
import Idealize.ShloMosaic.Lib.KernelVsHost
import Idealize.ShloMosaic.Lib.ReduceAll
import Idealize.ShloMosaic.Lib.StableHlo.Predicate

noncomputable section

namespace Cert.EdgeMlp.Take

open Idealize.ShloMosaic Idealize.ShloMosaic.ValueIdx Cert.KernelIdeal Cert.EdgeMlp

variable [Cert.KernelIdeal.Facts]
open Cert.KernelIdeal.Facts₀

variable {F : FTy → Type} [FloatOps F]

/-- The index vector padded at its end with 7616 zero words. -/
def padIdx (s : IVec S1000000 32) : IVec S1007616 32 :=
  pad S1007616 ![0] ![7616] ![0] s (constantI S_ 32 0#32) pads_S1000000_S1007616_076160 h_S_

/-- jnp's normalisation of a negative index: add the table's length. -/
def wrapIdx (p : IVec S1007616 32) : IVec S1007616 32 :=
  select (cmpi .slt p (broadcastInDim S1007616 ![] bcast_S_S1007616 (constantI S_ 32 0#32)))
    (addi p (broadcastInDim S1007616 ![] bcast_S_S1007616 (constantI S_ 32 100000#32))) p

/-- The (moved) indices as a column of start indices. -/
def startCol (p : IVec S1007616 32) : IVec S1007616x1 32 :=
  broadcastInDim S1007616x1 ![0] bcast_S1007616_S1007616x1_0 (wrapIdx p)

/-- Which rows have their index inside the table. -/
def inTable (p : IVec S1007616 32) : IVec S1007616 1 :=
  Host.reduce IntOp.andi
    (andi (cmpi .sge (startCol p) (broadcastInDim S1007616x1 ![] bcast_S_S1007616x1 (constantI S_ 32 0#32)))
      (cmpi .sle (startCol p) (broadcastInDim S1007616x1 ![0, 1] bcast_S1x1_S1007616x1_0_1
        (broadcastInDim S1x1 ![1] bcast_S1_S1x1_1 (constantI S1 32 99999#32)))))
    (constantI S_ 1 1#1) reducesTo_S1007616x1_S1007616_d1 h_S_

/-- `jnp.take(h, p, axis=0)`: the gathered rows, NaN where the index is outside the table. -/
def takeFill (h : FVec F S100000x128 .f32) (p : IVec S1007616 32) : FVec F S1007616x128 .f32 :=
  select (broadcastInDim S1007616x128 ![0] bcast_S1007616_S1007616x128_0 (inTable p))
    (Host.gather gather_S100000x128_S1007616x1_S1007616x128_1_0_n_n_0_1_1128 h (startCol p))
    (broadcastInDim S1007616x128 ![] bcast_S_S1007616x128 (constant S_ .f32 0x7FC00000#32))

/-! ## The steps, each read at one entry -/

/-- (i) Inside the operand the padded vector is the vector. -/
theorem padIdx_apply (s : IVec S1000000 32) (e : Fin 1000000) :
    padIdx s (ix1 (⟨e.val, by omega⟩ : Fin 1007616)) = s (ix1 e) := by
  unfold padIdx
  exact pad_apply_of_inside _ _ _ s _ pads_S1000000_S1007616_076160 h_S_ _ (ix1 e) (fun a => match a with
    | ⟨0, _⟩ => by show e.val = 0 + e.val * (0 + 1); omega)

/-- A word below 100000 is not negative. -/
theorem slt_zero_of_lt {w : BitVec 32} (hw : w.toNat < 100000) : IntOp.cmpi .slt w 0#32 = 0#1 :=
  eq_zero_of_ne_one fun h1 => by
    have h2 : w.toNat < (0#32 : BitVec 32).toNat :=
      (StableHlo.Predicate.slt_iff_toNat (a := w) (b := 0#32) (by omega) (by decide)).1 h1
    have h0 : (0#32 : BitVec 32).toNat = 0 := rfl
    omega

/-- A word below 100000 is at least zero, read signed. -/
theorem sge_zero_of_lt {w : BitVec 32} (hw : w.toNat < 100000) : IntOp.cmpi .sge w 0#32 = 1#1 :=
  (StableHlo.Predicate.sge_iff_toNat (a := w) (b := 0#32) (by omega) (by decide)).2 (by
    have h0 : (0#32 : BitVec 32).toNat = 0 := rfl
    omega)

/-- A word below 100000 is at most 99999, read signed. -/
theorem sle_last_of_lt {w : BitVec 32} (hw : w.toNat < 100000) : IntOp.cmpi .sle w 99999#32 = 1#1 :=
  (StableHlo.Predicate.sle_iff_toNat (a := w) (b := 99999#32) (by omega) (by decide)).2 (by
    have h9 : (99999#32 : BitVec 32).toNat = 99999 := rfl
    omega)

/-- (ii) An index word that is a row of the table is not moved. -/
theorem wrapIdx_apply (p : IVec S1007616 32) (i : S1007616.Idx) (hp : (p i).toNat < 100000) : wrapIdx p i = p i := by
  unfold wrapIdx
  refine (select_apply _ _ _ i).trans ?_
  have hb : broadcastInDim S1007616 ![] bcast_S_S1007616 (constantI S_ 32 0#32) i = 0#32 :=
    StableHlo.Predicate.bcast_scalar bcast_S_S1007616 h_S_ _ i
  have hc : cmpi .slt p (broadcastInDim S1007616 ![] bcast_S_S1007616 (constantI S_ 32 0#32)) i = 0#1 := by
    show IntOp.cmpi .slt (p i) (broadcastInDim S1007616 ![] bcast_S_S1007616 (constantI S_ 32 0#32) i) = 0#1
    rw [hb]; exact slt_zero_of_lt hp
  rw [hc]; exact select_zero _ _

/-- (iii) The column of start indices at row e' is the (moved) index e'. -/
theorem startCol_apply (p : IVec S1007616 32) (e' : Fin 1007616) :
    startCol p (ix2 e' (0 : Fin 1)) = wrapIdx p (ix1 e') := by
  unfold startCol
  generalize wrapIdx p = y
  exact broadcastInDim_apply _ bcast_S1007616_S1007616x1_0 y _ (ix1 e') (fun a => match a with
    | ⟨0, _⟩ => by show e'.val = if (1007616 : Nat) = 1 then 0 else e'.val; rw [if_neg (by decide)])

/-- The start index of row e', for an index word that is a row of the table: the word. -/
theorem startCol_eq (p : IVec S1007616 32) (e' : Fin 1007616) (hp : (p (ix1 e')).toNat < 100000) :
    startCol p (ix2 e' (0 : Fin 1)) = p (ix1 e') :=
  (startCol_apply p e').trans (wrapIdx_apply p (ix1 e') hp)

/-- A fold over an index type with one element is one application of the operation. -/
theorem fold_univ_fin_one {α : Type} {n : Nat} (hn : n = 1) (op : α → α → α) [Std.Commutative op] [Std.Associative op]
    (b : α) (f : Fin n → α) : (Finset.univ : Finset (Fin n)).fold op b f = op (f ⟨0, by omega⟩) b := by
  subst hn
  rw [Finset.univ_unique, Finset.fold_singleton]
  rfl

/-- A select on a bit that is 1 is its first operand. -/
theorem select_of_eq_one {α : Type} (c : BitVec 1) (a b : α) (hc : c = 1#1) : Scalar.select c a b = a := by
  rw [hc]; exact select_one a b

/-- A reduction by conjunction from the bit 1 along an axis of size one keeps the one element. -/
theorem reduce_and_col (x : IVec S1007616x1 1) (e' : Fin 1007616) :
    Host.reduce IntOp.andi x (constantI S_ 1 1#1) reducesTo_S1007616x1_S1007616_d1 h_S_ (ix1 e')
      = IntOp.andi (x (ix2 e' (0 : Fin 1))) 1#1 := by
  have hR : Shape.Reduces S1007616x1 [1] S1007616 := by decide
  refine (Host.reduce_eq_fold_single IntOp.andi x _ reducesTo_S1007616x1_S1007616_d1 hR h_S_ (ix1 e')).trans ?_
  refine (fold_univ_fin_one (n := S1007616x1.size 1) rfl IntOp.andi _ _).trans ?_
  have hl : hR.lift (ix1 e') (⟨0, by decide⟩ : Fin (S1007616x1.size 1)) = ix2 e' (0 : Fin 1) :=
    funext fun c => match c with
      | ⟨0, _⟩ => rfl
      | ⟨1, _⟩ => rfl
  exact congrArg (fun i => IntOp.andi (x i) 1#1) hl

/-- (iv) A row whose index word is a row of the table has its index inside the table. -/
theorem inTable_apply (p : IVec S1007616 32) (e' : Fin 1007616) (hp : (p (ix1 e')).toNat < 100000) :
    inTable p (ix1 e') = 1#1 := by
  unfold inTable
  refine (reduce_and_col _ e').trans ?_
  have hsc := startCol_eq p e' hp
  have h0 : broadcastInDim S1007616x1 ![] bcast_S_S1007616x1 (constantI S_ 32 0#32) (ix2 e' (0 : Fin 1)) = 0#32 :=
    StableHlo.Predicate.bcast_scalar bcast_S_S1007616x1 h_S_ _ _
  have h9 : broadcastInDim S1007616x1 ![0, 1] bcast_S1x1_S1007616x1_0_1
      (broadcastInDim S1x1 ![1] bcast_S1_S1x1_1 (constantI S1 32 99999#32)) (ix2 e' (0 : Fin 1)) = 99999#32 :=
    (broadcastInDim_apply _ bcast_S1x1_S1007616x1_0_1 _ _ (ix2 (0 : Fin 1) (0 : Fin 1)) (fun a => match a with
      | ⟨0, _⟩ => rfl
      | ⟨1, _⟩ => rfl)).trans
    (broadcastInDim_apply _ bcast_S1_S1x1_1 _ _ (ix1 (0 : Fin 1)) (fun a => match a with
      | ⟨0, _⟩ => rfl))
  show IntOp.andi (IntOp.andi
      (IntOp.cmpi .sge (startCol p (ix2 e' (0 : Fin 1)))
        (broadcastInDim S1007616x1 ![] bcast_S_S1007616x1 (constantI S_ 32 0#32) (ix2 e' (0 : Fin 1))))
      (IntOp.cmpi .sle (startCol p (ix2 e' (0 : Fin 1)))
        (broadcastInDim S1007616x1 ![0, 1] bcast_S1x1_S1007616x1_0_1
          (broadcastInDim S1x1 ![1] bcast_S1_S1x1_1 (constantI S1 32 99999#32)) (ix2 e' (0 : Fin 1))))) 1#1 = 1#1
  rw [h0, h9, hsc, sge_zero_of_lt hp, sle_last_of_lt hp]
  decide

/-- (v), (vi) Row e' of the take, for an index word that is a row of the table: the table's row. -/
theorem takeFill_eq (h : FVec Ideal S100000x128 .f32) (p : IVec S1007616 32) (e' : Fin 1007616) (j : Fin 128)
    (hp : (p (ix1 e')).toNat < 100000) :
    takeFill (F := Ideal) h p (ix2 e' j) = h (ix2 (rowOf (p (ix1 e'))) j) := by
  unfold takeFill
  refine (select_apply _ _ _ _).trans ?_
  have hm : broadcastInDim S1007616x128 ![0] bcast_S1007616_S1007616x128_0 (inTable p) (ix2 e' j) = 1#1 :=
    (broadcastInDim_apply _ bcast_S1007616_S1007616x128_0 (inTable p) _ (ix1 e') (fun a => match a with
      | ⟨0, _⟩ => by show e'.val = if (1007616 : Nat) = 1 then 0 else e'.val; rw [if_neg (by decide)])).trans
    (inTable_apply p e' hp)
  refine (select_of_eq_one _ _ _ hm).trans ?_
  refine (gather_rows_apply (by decide) gather_S100000x128_S1007616x1_S1007616x128_1_0_n_n_0_1_1128 rfl rfl rfl rfl rfl
    h (startCol p) e' j).trans ?_
  have hsc := startCol_eq p e' hp
  exact congrArg (fun r => h (ix2 r j)) (Fin.ext (by
    show min (startCol p (ix2 e' (0 : Fin 1))).toInt.toNat (100000 - 1) = min (p (ix1 e')).toInt.toNat 99999
    rw [hsc]))

/-- ROW `e` OF THE TAKE, for one of the 1000000 real edges whose index word is a row of the table: the table's row. -/
theorem takeFill_apply (h : FVec Ideal S100000x128 .f32) (s : IVec S1000000 32) (hs : ∀ i, (s i).toNat < 100000)
    (e : Fin 1000000) (j : Fin 128) :
    takeFill (F := Ideal) h (padIdx s) (ix2 (⟨e.val, by omega⟩ : Fin 1007616) j) = h (ix2 (rowOf (s (ix1 e))) j) := by
  have hpe := padIdx_apply s e
  have hp : (padIdx s (ix1 (⟨e.val, by omega⟩ : Fin 1007616))).toNat < 100000 := by rw [hpe]; exact hs _
  refine (takeFill_eq h (padIdx s) ⟨e.val, by omega⟩ j hp).trans ?_
  rw [hpe]

end Cert.EdgeMlp.Take

end
-- ==== Proof.HostRowsU.lean ====
/-
  The source-node feature array the region finds is the host's take of the node table at the padded source indices.
  The host operations are read back one after the other; every intermediate value is carried to its buffer's own type and
  back, which is the identity; what is left is, layer by layer, the padded index vector, the negative-index move, the column
  of start indices, the in-table mask and the filled take.
-/
import proofs.«410828_j88201448391221_3_alg».proof.Proof.Gen.KernelIdeal.Frame
import proofs.«410828_j88201448391221_3_alg».proof.Proof.Algebra
import proofs.«410828_j88201448391221_3_alg».proof.Proof.Arrays
import proofs.«410828_j88201448391221_3_alg».proof.Proof.TakeRows
import Idealize.ShloMosaic.PureOps.Ideal
import Idealize.ShloMosaic.Lib.StableHlo.Run

noncomputable section

namespace Cert.EdgeMlp.HostRowsU

open Idealize.ShloMosaic Idealize.ShloMosaic.TcCoe Idealize.SL.Sem Idealize.ShloMosaic.StableHlo
open Cert.KernelIdeal Cert.KernelIdeal.Gen Cert.EdgeMlp Cert.EdgeMlp.Arr

variable (m : (ℓ : Loc nD τ sig) → Buf (Elt Ideal) ℓ)

/-- A value carried to a buffer's own type and back is the value. -/
theorem ofBuf_toBuf {T : BufTy} (x : TRef sig T) (v : T.Contents (Elt Ideal)) : x.ofBuf (x.toBuf v) = v := by
  obtain ⟨r, h, h2, h3⟩ := x
  subst h
  rfl

/-- At a buffer whose type IS the value's, the carrying is the identity: the index argument, -/
theorem ofBuf_idx (h1 h2 h3) (v : (⟨S1000000, .i32⟩ : BufTy).Contents (Elt Ideal)) :
    (TRef.of (T := ⟨S1000000, .i32⟩) main_arg5 h1 h2 h3).ofBuf (Val := Elt Ideal) v = v := rfl
/-- the node table, -/
theorem ofBuf_tab (h1 h2 h3) (v : (⟨S100000x128, .f32⟩ : BufTy).Contents (Elt Ideal)) :
    (TRef.of (T := ⟨S100000x128, .f32⟩) main_arg0 h1 h2 h3).ofBuf (Val := Elt Ideal) v = v := rfl
/-- the pad value, -/
theorem ofBuf_zero (h1 h2 h3) (v : (⟨S_, .i32⟩ : BufTy).Contents (Elt Ideal)) :
    (TRef.of (T := ⟨S_, .i32⟩) main_c h1 h2 h3).ofBuf (Val := Elt Ideal) v = v := rfl
/-- and the result. -/
theorem toBuf_res (h1 h2 h3) (v : (⟨S1007616x128, .f32⟩ : BufTy).Contents (Elt Ideal)) :
    (TRef.of (T := ⟨S1007616x128, .f32⟩) main_v18 h1 h2 h3).toBuf (Val := Elt Ideal) v = v := rfl

/-! The five layers, each one definition. -/

theorem pad_fold (s : IVec S1000000 32) :
    pad S1007616 ![0] ![7616] ![0] s (constantI S_ 32 0#32) pads_S1000000_S1007616_076160 h_S_ = Take.padIdx s := rfl

theorem wrap_fold (p : IVec S1007616 32) :
    select (cmpi CmpIPredicate.slt p (broadcastInDim S1007616 ![] bcast_S_S1007616 (constantI S_ 32 0#32)))
      (addi p (broadcastInDim S1007616 ![] bcast_S_S1007616 (constantI S_ 32 100000#32))) p = Take.wrapIdx p := rfl

theorem col_fold (p : IVec S1007616 32) :
    broadcastInDim S1007616x1 ![0] bcast_S1007616_S1007616x1_0 (Take.wrapIdx p) = Take.startCol p := rfl

theorem mask_fold (p : IVec S1007616 32) :
    Host.reduce IntOp.andi
      (andi (cmpi CmpIPredicate.sge (Take.startCol p) (broadcastInDim S1007616x1 ![] bcast_S_S1007616x1 (constantI S_ 32 0#32)))
        (cmpi CmpIPredicate.sle (Take.startCol p) (broadcastInDim S1007616x1 ![0, 1] bcast_S1x1_S1007616x1_0_1
          (broadcastInDim S1x1 ![1] bcast_S1_S1x1_1 (constantI S1 32 99999#32)))))
      (constantI S_ 1 1#1) reducesTo_S1007616x1_S1007616_d1 h_S_ = Take.inTable p := rfl

theorem take_fold (h : FVec Ideal S100000x128 .f32) (p : IVec S1007616 32) :
    select (broadcastInDim S1007616x128 ![0] bcast_S1007616_S1007616x128_0 (Take.inTable p))
      (Host.gather gather_S100000x128_S1007616x1_S1007616x128_1_0_n_n_0_1_1128 h (Take.startCol p))
      (broadcastInDim S1007616x128 ![] bcast_S_S1007616x128 (constant S_ .f32 0x7FC00000#32)) = Take.takeFill (F := Ideal) h p := rfl

set_option maxHeartbeats 2000000 in
theorem HU_eq (c : Dev nD) : HU m c = Take.takeFill (F := Ideal) (h m c) (Take.padIdx (src m c)) := by
  dsimp only [HU, h, src, Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [ofBuf_toBuf, ofBuf_idx, ofBuf_tab, ofBuf_zero, toBuf_res, id_eq]
  rw [pad_fold, wrap_fold, col_fold, mask_fold, take_fold]

end Cert.EdgeMlp.HostRowsU

end
-- ==== Proof.HostRowsV.lean ====
/-
  The destination-node feature array the region finds is the host's take of the node table at the padded destination indices.
  The host operations are read back one after the other; every intermediate value is carried to its buffer's own type and
  back, which is the identity; what is left is, layer by layer, the padded index vector, the negative-index move, the column
  of start indices, the in-table mask and the filled take.
-/
import proofs.«410828_j88201448391221_3_alg».proof.Proof.Gen.KernelIdeal.Frame
import proofs.«410828_j88201448391221_3_alg».proof.Proof.Algebra
import proofs.«410828_j88201448391221_3_alg».proof.Proof.Arrays
import proofs.«410828_j88201448391221_3_alg».proof.Proof.TakeRows
import Idealize.ShloMosaic.PureOps.Ideal
import Idealize.ShloMosaic.Lib.StableHlo.Run

noncomputable section

namespace Cert.EdgeMlp.HostRowsV

open Idealize.ShloMosaic Idealize.ShloMosaic.TcCoe Idealize.SL.Sem Idealize.ShloMosaic.StableHlo
open Cert.KernelIdeal Cert.KernelIdeal.Gen Cert.EdgeMlp Cert.EdgeMlp.Arr

variable (m : (ℓ : Loc nD τ sig) → Buf (Elt Ideal) ℓ)

/-- A value carried to a buffer's own type and back is the value. -/
theorem ofBuf_toBuf {T : BufTy} (x : TRef sig T) (v : T.Contents (Elt Ideal)) : x.ofBuf (x.toBuf v) = v := by
  obtain ⟨r, h, h2, h3⟩ := x
  subst h
  rfl

/-- At a buffer whose type IS the value's, the carrying is the identity: the index argument, -/
theorem ofBuf_idx (h1 h2 h3) (v : (⟨S1000000, .i32⟩ : BufTy).Contents (Elt Ideal)) :
    (TRef.of (T := ⟨S1000000, .i32⟩) main_arg6 h1 h2 h3).ofBuf (Val := Elt Ideal) v = v := rfl
/-- the node table, -/
theorem ofBuf_tab (h1 h2 h3) (v : (⟨S100000x128, .f32⟩ : BufTy).Contents (Elt Ideal)) :
    (TRef.of (T := ⟨S100000x128, .f32⟩) main_arg0 h1 h2 h3).ofBuf (Val := Elt Ideal) v = v := rfl
/-- the pad value, -/
theorem ofBuf_zero (h1 h2 h3) (v : (⟨S_, .i32⟩ : BufTy).Contents (Elt Ideal)) :
    (TRef.of (T := ⟨S_, .i32⟩) main_c_0 h1 h2 h3).ofBuf (Val := Elt Ideal) v = v := rfl
/-- and the result. -/
theorem toBuf_res (h1 h2 h3) (v : (⟨S1007616x128, .f32⟩ : BufTy).Contents (Elt Ideal)) :
    (TRef.of (T := ⟨S1007616x128, .f32⟩) main_v19 h1 h2 h3).toBuf (Val := Elt Ideal) v = v := rfl

/-! The five layers, each one definition. -/

theorem pad_fold (s : IVec S1000000 32) :
    pad S1007616 ![0] ![7616] ![0] s (constantI S_ 32 0#32) pads_S1000000_S1007616_076160 h_S_ = Take.padIdx s := rfl

theorem wrap_fold (p : IVec S1007616 32) :
    select (cmpi CmpIPredicate.slt p (broadcastInDim S1007616 ![] bcast_S_S1007616 (constantI S_ 32 0#32)))
      (addi p (broadcastInDim S1007616 ![] bcast_S_S1007616 (constantI S_ 32 100000#32))) p = Take.wrapIdx p := rfl

theorem col_fold (p : IVec S1007616 32) :
    broadcastInDim S1007616x1 ![0] bcast_S1007616_S1007616x1_0 (Take.wrapIdx p) = Take.startCol p := rfl

theorem mask_fold (p : IVec S1007616 32) :
    Host.reduce IntOp.andi
      (andi (cmpi CmpIPredicate.sge (Take.startCol p) (broadcastInDim S1007616x1 ![] bcast_S_S1007616x1 (constantI S_ 32 0#32)))
        (cmpi CmpIPredicate.sle (Take.startCol p) (broadcastInDim S1007616x1 ![0, 1] bcast_S1x1_S1007616x1_0_1
          (broadcastInDim S1x1 ![1] bcast_S1_S1x1_1 (constantI S1 32 99999#32)))))
      (constantI S_ 1 1#1) reducesTo_S1007616x1_S1007616_d1 h_S_ = Take.inTable p := rfl

theorem take_fold (h : FVec Ideal S100000x128 .f32) (p : IVec S1007616 32) :
    select (broadcastInDim S1007616x128 ![0] bcast_S1007616_S1007616x128_0 (Take.inTable p))
      (Host.gather gather_S100000x128_S1007616x1_S1007616x128_1_0_n_n_0_1_1128 h (Take.startCol p))
      (broadcastInDim S1007616x128 ![] bcast_S_S1007616x128 (constant S_ .f32 0x7FC00000#32)) = Take.takeFill (F := Ideal) h p := rfl

set_option maxHeartbeats 2000000 in
theorem HV_eq (c : Dev nD) : HV m c = Take.takeFill (F := Ideal) (h m c) (Take.padIdx (dst m c)) := by
  dsimp only [HV, h, dst, Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [ofBuf_toBuf, ofBuf_idx, ofBuf_tab, ofBuf_zero, toBuf_res, id_eq]
  rw [pad_fold, wrap_fold, col_fold, mask_fold, take_fold]

end Cert.EdgeMlp.HostRowsV

end
-- ==== Proof.KernelValue.lean ====
/-
  The region's result array at the row of a real edge is the specification's score. The gathered feature rows are the node
  table's rows the edge's index words name (they are inside the table); the weight operands are the weights and their
  differences with themselves; all entries are real numbers, so the kernel's split products collapse to the reference's
  products (the law of the algebra module).
-/
import proofs.«410828_j88201448391221_3_alg».proof.Proof.Gen.KernelIdeal.Frame
import proofs.«410828_j88201448391221_3_alg».proof.Proof.Algebra
import proofs.«410828_j88201448391221_3_alg».proof.Proof.Arrays
import proofs.«410828_j88201448391221_3_alg».proof.Proof.Blocks
import proofs.«410828_j88201448391221_3_alg».proof.Proof.HostSmall
import proofs.«410828_j88201448391221_3_alg».proof.Proof.HostRowsU
import proofs.«410828_j88201448391221_3_alg».proof.Proof.HostRowsV
import proofs.«410828_j88201448391221_3_alg».proof.Proof.TakeRows
import Idealize.ShloMosaic.PureOps.Ideal
import Idealize.ShloMosaic.Lib.ValueIdx

noncomputable section

namespace Cert.EdgeMlp.KernelValue

open Idealize.ShloMosaic Idealize.ShloMosaic.TcCoe Idealize.SL.Sem Idealize.ShloMosaic.ValueIdx
open Cert.KernelIdeal Cert.KernelIdeal.Gen Cert.EdgeMlp Cert.EdgeMlp.Arr Cert.EdgeMlp.Blocks

/-- The same statement over ARBITRARY operand arrays that satisfy the ten equations the host operations give: the two
    feature arrays are takes of the node table, the weight operands are the weights (their first and last 128 rows for the
    first layer) and their differences with themselves, the bias operands are the bias vectors as one-row matrices. -/
theorem score_of_operands (h : Mat 100000 128) (W1 : Mat 256 128) (b1 : (⟨1, ![128]⟩ : Shape).Idx → EReal)
    (W2 : Mat 128 86) (b2 : (⟨1, ![86]⟩ : Shape).Idx → EReal) (src dst : (⟨1, ![1000000]⟩ : Shape).Idx → BitVec 32)
    (HU HV : Mat 1007616 128) (Ah Al Bh Bl : Mat 128 128) (B1 : Mat 1 128) (Ch Cl : Mat 128 86) (B2 : Mat 1 86)
    (eHU : HU = Take.takeFill (F := Ideal) h (Take.padIdx src)) (eHV : HV = Take.takeFill (F := Ideal) h (Take.padIdx dst))
    (eAh : Ah = top W1) (eAl : Al = fun i => top W1 i - top W1 i)
    (eBh : Bh = bot W1) (eBl : Bl = fun i => bot W1 i - bot W1 i)
    (eCh : Ch = W2) (eCl : Cl = fun i => W2 i - W2 i)
    (eB1 : ∀ k : Fin 128, B1 (ix2 (0 : Fin 1) k) = b1 (ix1 k)) (eB2 : ∀ k : Fin 86, B2 (ix2 (0 : Fin 1) k) = b2 (ix1 k))
    (hh : ∀ i, IsReal (h i)) (hW1 : ∀ i, IsReal (W1 i)) (hb1 : ∀ i, IsReal (b1 i)) (hW2 : ∀ i, IsReal (W2 i))
    (hs : ∀ i, (src i).toNat < 100000) (hd : ∀ i, (dst i).toNat < 100000) (e : Fin 1000000) (cc : Fin 86) :
    wholeOut HU HV Ah Al Bh Bl B1 Ch Cl B2 (ix2 (⟨e.val, by omega⟩ : Fin 1007616) cc)
      = scoreAt h W1 b1 W2 b2 src dst e cc := by
  subst HU HV Ah Al Bh Bl Ch Cl
  refine (wholeOut_at _ _ _ _ _ _ _ _ _ _ _ (⟨e.val, by omega⟩ : Fin 1007616) cc rfl rfl).trans ?_
  -- the two gathered rows are rows of the node table
  have hu : (fun j : Fin 128 => Take.takeFill (F := Ideal) h (Take.padIdx src) (ix2 (⟨e.val, by omega⟩ : Fin 1007616) j))
      = fun j => h (ix2 (rowOf (src (ix1 e))) j) := funext fun j => Take.takeFill_apply h src hs e j
  have hv : (fun j : Fin 128 => Take.takeFill (F := Ideal) h (Take.padIdx dst) (ix2 (⟨e.val, by omega⟩ : Fin 1007616) j))
      = fun j => h (ix2 (rowOf (dst (ix1 e))) j) := funext fun j => Take.takeFill_apply h dst hd e j
  rw [hu, hv]
  -- the one-row bias matrix is real at every index: its row coordinate is 0
  have hB1 : ∀ i, IsReal (B1 i) := by
    intro i
    have e0 : i = ix2 (0 : Fin 1) (⟨(i 1).val, idx2_lt1 i⟩ : Fin 128) := by
      funext a
      match a with
      | ⟨0, _⟩ => exact Fin.ext (by have := idx2_lt0 i; show (i 0).val = 0; omega)
      | ⟨1, _⟩ => rfl
    rw [e0, eB1]
    exact hb1 _
  refine (outSplit_hidSplit_eq _ _ (top W1) (bot W1) B1 W2 B2 cc (fun j => hh _) (fun j => hh _)
    (fun i => by unfold top; exact hW1 _) (fun i => by unfold bot; exact hW1 _) hB1 hW2).trans ?_
  unfold scoreAt
  rw [show (fun k : Fin 128 => B1 (ix2 0 k)) = fun k => b1 (ix1 k) from funext eB1,
    show (fun c : Fin 86 => B2 (ix2 0 c)) = fun c => b2 (ix1 c) from funext eB2]

variable (m : (ℓ : Loc nD τ sig) → Buf (Elt Ideal) ℓ)

/-- THE KERNEL'S ARRAY IS THE SPECIFICATION at every real edge, for real inputs and index words inside the table. -/
theorem kernel_apply (c : Dev nD) (hh : ∀ i, IsReal (h m c i)) (hW1 : ∀ i, IsReal (W1 m c i)) (hb1 : ∀ i, IsReal (b1 m c i))
    (hW2 : ∀ i, IsReal (W2 m c i)) (hs : ∀ i, (src m c i).toNat < 100000) (hd : ∀ i, (dst m c i).toNat < 100000)
    (e : Fin 1000000) (cc : Fin 86) :
    wholeOut (HU m c) (HV m c) (Ah m c) (Al m c) (Bh m c) (Bl m c) (B1 m c) (Ch m c) (Cl m c) (B2 m c)
        (ix2 (⟨e.val, by omega⟩ : Fin 1007616) cc)
      = scoreAt (h m c) (W1 m c) (b1 m c) (W2 m c) (b2 m c) (src m c) (dst m c) e cc := by
  exact score_of_operands (h m c) (W1 m c) (b1 m c) (W2 m c) (b2 m c) (src m c) (dst m c)
    (HU m c) (HV m c) (Ah m c) (Al m c) (Bh m c) (Bl m c) (B1 m c) (Ch m c) (Cl m c) (B2 m c)
    (HostRowsU.HU_eq m c) (HostRowsV.HV_eq m c) (HostSmall.Ah_eq m c) (HostSmall.Al_eq m c) (HostSmall.Bh_eq m c)
    (HostSmall.Bl_eq m c) (HostSmall.Ch_eq m c) (HostSmall.Cl_eq m c) (HostSmall.B1_apply m c) (HostSmall.B2_apply m c)
    hh hW1 hb1 hW2 hs hd e cc

end Cert.EdgeMlp.KernelValue

end
-- ==== Proof.lean ====
/-
  The certificate of the edge scorer: a two-layer perceptron on the features of each edge's two end nodes,
  `score = relu (h[src] · W1[:128] + h[dst] · W1[128:] + b1) · W2 + b2`, one row of 86 scores an edge.

  The kernel's program gathers the feature rows on the host (`jnp.take`, over the index vectors padded with zeros to a
  whole number of 8192-row tiles), splits every matrix operand into a high part and a low part (`x` narrowed to the
  shorter float format, and `x` minus that, narrowed again) and adds three products for each product of the reference;
  a pallas_call over 123 tiles does the arithmetic, and the host drops the padded rows. On the extended reals a change of
  format is the identity, so the high part is the operand and the low part is the operand minus itself, which is zero for
  a real number: the three products are the reference's one. The claim is stated for finite float inputs and for index
  words that are rows of the node table (there the reference's clamping gather and the kernel's NaN-filling take read the
  same rows).

  The pieces: the arithmetic law (Algebra), the precondition decoded (PreDecode), the reference's result entry by entry
  (RefValue over the generated read-at-an-index module), the kernel body's block entry by entry (Payload), the blocks
  tiling the result array (Blocks), the host operations before the region (TakeRows, HostRowsU, HostRowsV, HostSmall) and
  after it (Tail), and the kernel's array against the specification (KernelValue). Here they are put together.
-/
import proofs.«410828_j88201448391221_3_alg».proof.Defs
import proofs.«410828_j88201448391221_3_alg».proof.Proof.Gen.Kernel
import proofs.«410828_j88201448391221_3_alg».proof.Proof.Gen.Kernel.Skeleton
import proofs.«410828_j88201448391221_3_alg».proof.Proof.Gen.Kernel.Launch
import proofs.«410828_j88201448391221_3_alg».proof.Proof.Gen.Kernel.Points
import proofs.«410828_j88201448391221_3_alg».proof.Proof.Gen.Kernel.Frame
import proofs.«410828_j88201448391221_3_alg».proof.Proof.Gen.KernelIdeal
import proofs.«410828_j88201448391221_3_alg».proof.Proof.Gen.KernelIdeal.Skeleton
import proofs.«410828_j88201448391221_3_alg».proof.Proof.Gen.KernelIdeal.Launch
import proofs.«410828_j88201448391221_3_alg».proof.Proof.Gen.KernelIdeal.Points
import proofs.«410828_j88201448391221_3_alg».proof.Proof.Gen.KernelIdeal.Frame
import proofs.«410828_j88201448391221_3_alg».proof.Proof.Gen.ReferenceIdeal
import proofs.«410828_j88201448391221_3_alg».proof.Proof.Gen.Pre_finite_inputs
import proofs.«410828_j88201448391221_3_alg».proof.Proof.Gen.ReferenceIdeal.Run
import proofs.«410828_j88201448391221_3_alg».proof.Proof.Gen.ReferenceIdeal.Read
import proofs.«410828_j88201448391221_3_alg».proof.Proof.Algebra
import proofs.«410828_j88201448391221_3_alg».proof.Proof.Arrays
import proofs.«410828_j88201448391221_3_alg».proof.Proof.PreDecode
import proofs.«410828_j88201448391221_3_alg».proof.Proof.RefValue
import proofs.«410828_j88201448391221_3_alg».proof.Proof.Tail
import proofs.«410828_j88201448391221_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeMlp

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The three rewrites of the idealization: a value narrowed to the shorter format and widened back is the value on
    the extended reals, and the rounding through the shorter format on words. -/
theorem preserves : Cert.preserves_Kernel_KernelIdeal :=
  ⟨IdealRules.truncf_extf.statement Cert.KernelIdeal.S8192x128 .f32 .bf16,
   IdealRules.truncf_extf.statement Cert.KernelIdeal.S8192x128 .f32 .bf16,
   IdealRules.truncf_extf.statement Cert.KernelIdeal.S8192x128 .f32 .bf16⟩

/-- THE TWO PROGRAMS END WITH EQUAL RESULTS. Both end at the specification's score, entry by entry: the kernel's program
    by the blocks, the host operations around the region and the arithmetic law; the reference by its run read back. -/
theorem algebraic : Cert.algebraic_KernelIdeal_ReferenceIdeal := by
  intro m ρ m' ρ' hpre hagree
  refine ⟨fun c => Cert.ReferenceIdeal.Read.val_main_v26 (F := Ideal) (Arr.h m c) (Arr.W1 m c) (Arr.b1 m c) (Arr.W2 m c)
      (Arr.b2 m c) (Arr.src m c) (Arr.dst m c), ?_, ?_⟩
  · refine (θ_run Cert.KernelIdeal.defs _ _).mono (fun r h c => ?_) (Cert.KernelIdeal.Gen.run_main m ρ)
    obtain ⟨hh, hW1, hb1, hW2, -, hs, hd⟩ := Pre.of_pre _ _ _ _ _ _ _ (hpre c)
    refine ⟨?_,
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).2 Cert.KernelIdeal.main_arg6 (Pipeline.mem_restRefs_of Cert.KernelIdeal.main_arg6 (by decide) (by decide))).trans (Cert.KernelIdeal.Gen.W_main_arg6 m (Cert.KernelIdeal.Gen.dats m) c)⟩
    funext i
    obtain ⟨e, cc, rfl⟩ : ∃ (e : Fin 1000000) (cc : Fin 86), i = ix2 e cc := ⟨i 0, i 1, eq_ix2 i⟩
    exact (Tail.result_apply m c r h e cc).trans
      ((KernelValue.kernel_apply m c hh hW1 hb1 hW2 hs hd e cc).trans
        (Ref.ref_apply (Arr.h m c) (Arr.W1 m c) (Arr.b1 m c) (Arr.W2 m c) (Arr.b2 m c) (Arr.src m c) (Arr.dst m c) hs hd e cc).symm)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
